-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000 : Shape := ⟨1, ![500000]⟩
abbrev S55049x1024 : Shape := ⟨2, ![55049, 1024]⟩
abbrev S1152x128 : Shape := ⟨2, ![1152, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S2x500000 : Shape := ⟨2, ![2, 500000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000 : S_.BroadcastsInDim S500000 (![] : Fin 0 → Fin S500000.rank)
  reducesTo_S500000_S_d0 : S500000.ReducesTo [0] S_
  bcast_S_S55049x1024 : S_.BroadcastsInDim S55049x1024 (![] : Fin 0 → Fin S55049x1024.rank)
  reducesTo_S55049x1024_S_d0_1 : S55049x1024.ReducesTo [0, 1] S_
  bcast_S_S1152x128 : S_.BroadcastsInDim S1152x128 (![] : Fin 0 → Fin S1152x128.rank)
  reducesTo_S1152x128_S_d0_1 : S1152x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S128x10 .f32) (main_arg8 : FVec F S10 .f32) (main_v33 : IVec S_ 1) : IVec S_ 1 :=
  let main_v34 : FVec F S128x10 .f32 := Host.absf main_arg7
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x10 .f32) (main_arg8 : FVec F S10 .f32) (main_v13 : IVec S_ 1) (main_v16 : IVec S1152x128 1) : IVec S_ 1 :=
  let main_c_5 : IVec S_ 1 := constantI S_ 1 1#1
  let main_v17 : IVec S_ 1 := (fun x v => Host.reduce IntOp.andi x v reducesTo_S1152x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S500000 .f32) (main_arg2 : FVec F S55049x1024 .f32) (main_arg3 : FVec F S1152x128 .f32) (main_arg4 : FVec F S128 .f32) (main_arg5 : FVec F S128x128 .f32) (main_arg6 : FVec F S128 .f32) (main_arg7 : FVec F S128x10 .f32) (main_arg8 : FVec F S10 .f32) (main_arg9 : IVec S2x500000 32) (main_arg10 : IVec S50000 32) (main_arg11 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S55049x1024 .f32 := Host.absf main_arg2
  let main_cst_2 : FVec F S_ .f32 := constant S_ .f32 0x7F800000#32
  let main_v10 : FVec F S55049x1024 .f32 := broadcastInDim S55049x1024 ![] bcast_S_S55049x1024 main_cst_2
  let main_v11 : IVec S55049x1024 1 := cmpf .olt main_v9 main_v10
  let main_c_3 : IVec S_ 1 := constantI S_ 1 1#1
  let main_v12 : IVec S_ 1 := (fun x v => Host.reduce IntOp.andi x v reducesTo_S55049x1024_S_d0_1 h_S_) main_v11 main_c_3
  let main_v13 : IVec S_ 1 := andi main_v8 main_v12
  let main_v14 : FVec F S1152x128 .f32 := Host.absf main_arg3
  let main_cst_4 : FVec F S_ .f32 := constant S_ .f32 0x7F800000#32
  let main_v15 : FVec F S1152x128 .f32 := broadcastInDim S1152x128 ![] bcast_S_S1152x128 main_cst_4
  let main_v16 : IVec S1152x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S500000 : Shape := ⟨1, ![500000]⟩
abbrev S55049x1024 : Shape := ⟨2, ![55049, 1024]⟩
abbrev S1152x128 : Shape := ⟨2, ![1152, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S2x500000 : Shape := ⟨2, ![2, 500000]⟩
abbrev S50000 : Shape := ⟨1, ![50000]⟩
abbrev S1024x128 : Shape := ⟨2, ![1024, 128]⟩
abbrev S_ : Shape := ⟨0, ![]⟩
abbrev S55296x1024 : Shape := ⟨2, ![55296, 1024]⟩
abbrev S55296x128 : Shape := ⟨2, ![55296, 128]⟩
abbrev S2048x1024 : Shape := ⟨2, ![2048, 1024]⟩
abbrev S2048x128 : Shape := ⟨2, ![2048, 128]⟩
abbrev S55049x128 : Shape := ⟨2, ![55049, 128]⟩
abbrev S50000x1 : Shape := ⟨2, ![50000, 1]⟩
abbrev S5000x128 : Shape := ⟨2, ![5000, 128]⟩
abbrev S1x500000 : Shape := ⟨2, ![1, 500000]⟩
abbrev S550000 : Shape := ⟨1, ![550000]⟩
abbrev S550000x1 : Shape := ⟨2, ![550000, 1]⟩
abbrev S550000x128 : Shape := ⟨2, ![550000, 128]⟩
abbrev S1x128 : Shape := ⟨2, ![1, 128]⟩
abbrev S64 : Shape := ⟨1, ![64]⟩
abbrev S1x64 : Shape := ⟨2, ![1, 64]⟩
abbrev S50000x64 : Shape := ⟨2, ![50000, 64]⟩
abbrev S64x128 : Shape := ⟨2, ![64, 128]⟩
abbrev S5000x64 : Shape := ⟨2, ![5000, 64]⟩
abbrev S64x5000 : Shape := ⟨2, ![64, 5000]⟩
abbrev S64x1 : Shape := ⟨2, ![64, 1]⟩
abbrev S64x10 : Shape := ⟨2, ![64, 10]⟩
abbrev S1x10 : Shape := ⟨2, ![1, 10]⟩

abbrev nBuf : Space → Nat
  | .hbm => 130
  | .vmem => 24
  | .smem => 0
  | _ => 0

abbrev hbmTy0_0 (i : Nat) : BufTy := match i % 128 with
  | 0 => ⟨S50000x128, .f32⟩
  | 1 => ⟨S500000, .f32⟩
  | 2 => ⟨S55049x1024, .f32⟩
  | 3 => ⟨S1152x128, .f32⟩
  | 4 => ⟨S128, .f32⟩
  | 5 => ⟨S128x128, .f32⟩
  | 6 => ⟨S128, .f32⟩
  | 7 => ⟨S128x10, .f32⟩
  | 8 => ⟨S10, .f32⟩
  | 9 => ⟨S2x500000, .i32⟩
  | 10 => ⟨S50000, .i32⟩
  | 11 => ⟨S50000, .i32⟩
  | 12 => ⟨S128x128, .f32⟩
  | 13 => ⟨S1024x128, .f32⟩
  | 14 => ⟨S_, .i32⟩
  | 15 => ⟨S_, .f32⟩
  | 16 => ⟨S55296x1024, .f32⟩
  | 17 => ⟨S55296x128, .f32⟩
  | 18 => ⟨S55049x128, .f32⟩
  | 19 => ⟨S_, .i32⟩
  | 20 => ⟨S50000, .i32⟩
  | 21 => ⟨S50000, .i1⟩
  | 22 => ⟨S_, .i32⟩
  | 23 => ⟨S50000, .i32⟩
  | 24 => ⟨S50000, .i32⟩
  | 25 => ⟨S50000, .i32⟩
  | 26 => ⟨S50000x1, .i32⟩
  | 27 => ⟨S50000x128, .f32⟩
  | 28 => ⟨S50000x128, .f32⟩
  | 29 => ⟨S1x500000, .i32⟩
  | 30 => ⟨S500000, .i32⟩
  | 31 => ⟨S1x500000, .i32⟩
  | 32 => ⟨S500000, .i32⟩
  | 33 => ⟨S50000, .i32⟩
  | 34 => ⟨S550000, .i32⟩
  | 35 => ⟨S550000, .i32⟩
  | 36 => ⟨S_, .f32⟩
  | 37 => ⟨S50000, .f32⟩
  | 38 => ⟨S550000, .f32⟩
  | 39 => ⟨S_, .f32⟩
  | 40 => ⟨S50000, .f32⟩
  | 41 => ⟨S550000x1, .i32⟩
  | 42 => ⟨S50000, .f32⟩
  | 43 => ⟨S_, .f32⟩
  | 44 => ⟨S50000, .f32⟩
  | 45 => ⟨S50000, .i1⟩
  | 46 => ⟨S50000, .f32⟩
  | 47 => ⟨S_, .f32⟩
  | 48 => ⟨S_, .f32⟩
  | 49 => ⟨S50000, .f32⟩
  | 50 => ⟨S50000, .f32⟩
  | 51 => ⟨S_, .i32⟩
  | 52 => ⟨S550000, .i32⟩
  | 53 => ⟨S550000, .i1⟩
  | 54 => ⟨S_, .i32⟩
  | 55 => ⟨S550000, .i32⟩
  | 56 => ⟨S550000, .i32⟩
  | 57 => ⟨S550000, .i32⟩
  | 58 => ⟨S550000x1, .i32⟩
  | 59 => ⟨S550000, .f32⟩
  | 60 => ⟨S550000, .f32⟩
  | 61 => ⟨S_, .i32⟩
  | 62 => ⟨S550000, .i32⟩
  | 63 => ⟨S550000, .i1⟩
  | 64 => ⟨S_, .i32⟩
  | 65 => ⟨S550000, .i32⟩
  | 66 => ⟨S550000, .i32⟩
  | 67 => ⟨S550000, .i32⟩
  | 68 => ⟨S550000x1, .i32⟩
  | 69 => ⟨S550000, .f32⟩
  | 70 => ⟨S550000, .f32⟩
  | 71 => ⟨S550000x1, .f32⟩
  | 72 => ⟨S_, .i32⟩
  | 73 => ⟨S550000, .i32⟩
  | 74 => ⟨S550000, .i1⟩
  | 75 => ⟨S_, .i32⟩
  | 76 => ⟨S550000, .i32⟩
  | 77 => ⟨S550000, .i32⟩
  | 78 => ⟨S550000, .i32⟩
  | 79 => ⟨S550000x1, .i32⟩
  | 80 => ⟨S550000x128, .f32⟩
  | 81 => ⟨S550000x128, .f32⟩
  | 82 => ⟨S550000x128, .f32⟩
  | 83 => ⟨S_, .f32⟩
  | 84 => ⟨S50000x128, .f32⟩
  | 85 => ⟨S550000x1, .i32⟩
  | 86 => ⟨S50000x128, .f32⟩
  | 87 => ⟨S1x128, .f32⟩
  | 88 => ⟨S50000x128, .f32⟩
  | 89 => ⟨S550000x1, .f32⟩
  | 90 => ⟨S_, .i32⟩
  | 91 => ⟨S550000, .i32⟩
  | 92 => ⟨S550000, .i1⟩
  | 93 => ⟨S_, .i32⟩
  | 94 => ⟨S550000, .i32⟩
  | 95 => ⟨S550000, .i32⟩
  | 96 => ⟨S550000, .i32⟩
  | 97 => ⟨S550000x1, .i32⟩
  | 98 => ⟨S550000x128, .f32⟩
  | 99 => ⟨S550000x128, .f32⟩
  | 100 => ⟨S550000x128, .f32⟩
  | 101 => ⟨S_, .f32⟩
  | 102 => ⟨S50000x128, .f32⟩
  | 103 => ⟨S550000x1, .i32⟩
  | 104 => ⟨S50000x128, .f32⟩
  | 105 => ⟨S50000x1, .i32⟩
  | 106 => ⟨S64, .i32⟩
  | 107 => ⟨S1x64, .i32⟩
  | 108 => ⟨S50000x64, .i32⟩
  | 109 => ⟨S50000x64, .i32⟩
  | 110 => ⟨S50000x64, .i1⟩
  | 111 => ⟨S50000x64, .f32⟩
  | 112 => ⟨S1x128, .f32⟩
  | 113 => ⟨S64x128, .f32⟩
  | 114 => ⟨S_, .f32⟩
  | 115 => ⟨S50000, .f32⟩
  | 116 => ⟨S_, .f32⟩
  | 117 => ⟨S64, .f32⟩
  | 118 => ⟨S50000x1, .i32⟩
  | 119 => ⟨S64, .f32⟩
  | 120 => ⟨S_, .f32⟩
  | 121 => ⟨S64, .f32⟩
  | 122 => ⟨S64, .f32⟩
  | 123 => ⟨S64x1, .f32⟩
  | 124 => ⟨S64x128, .f32⟩
  | 125 => ⟨S64x128, .f32⟩
  | 126 => ⟨S64x10, .f32⟩
  | 127 => ⟨S1x10, .f32⟩
  | _ => ⟨S50000x128, .f32⟩

abbrev hbmTy0_1 (i : Nat) : BufTy := match i % 128 with
  | 0 => ⟨S64x10, .f32⟩
  | 1 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S2048x128, .f32⟩
  | .local _ .vmem, ⟨4, _⟩ => ⟨S2048x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S5000x64, .f32⟩
  | .local _ .vmem, ⟨22, _⟩ => ⟨S5000x64, .f32⟩
  | .local _ .vmem, ⟨23, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_v47 : Ref sig .tc := ⟨.hbm, 74, rfl⟩
abbrev main_c_10 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_12 : Ref sig .tc := ⟨.hbm, 90, rfl⟩
abbrev main_v61 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_15 : Ref sig .tc := ⟨.hbm, 114, rfl⟩
abbrev main_v82 : Ref sig .tc := ⟨.hbm, 115, rfl⟩
abbrev main_cst_16 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_17 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S1152x128_S128x128_0_0 : S1152x128.Slices ![0, 0] S128x128
  slices_S1152x128_S1024x128_128_0 : S1152x128.Slices ![128, 0] S1024x128
  pads_S55049x1024_S55296x1024_02470_000 : S55049x1024.Pads (![0, 0] : Fin 2 → Nat) ![247, 0] ![0, 0] S55296x1024
  h_S_ : 0 < S_.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  slices_S55296x128_S55049x128_0_0 : S55296x128.Slices ![0, 0] S55049x128
  bcast_S_S50000 : S_.BroadcastsInDim S50000 (![] : Fin 0 → Fin S50000.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S5000x128_S5000x128 : S5000x128.ShapeCasts S5000x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S550000_S550000x1_0 : S550000.BroadcastsInDim S550000x1 (![0] : Fin 1 → Fin S550000x1.rank)
  bcast_S_S550000 : S_.BroadcastsInDim S550000 (![] : Fin 0 → Fin S550000.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  inb_S64x128_S64x128_0_0 : ∀ a, (![0, 0] : Fin 2 → Nat) a + S64x128.size a ≤ S64x128.size a
  h_S64x128 : 0 < S64x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64x128_S64x128 : S64x128.ShapeCasts S64x128
  transposes_S5000x64_p1_0_S64x5000 : S5000x64.Transposes [1, 0] S64x5000
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  dot_S2048x1024_S1024x128_S2048x128_1_0_0_1_n_n_wf : DotDims.WF S2048x1024 S1024x128 S2048x128 [1] [0] [0] [1] [] []
  gather_S55049x128_S50000x1_S50000x128_1_0_n_n_0_1_1128_wf : GatherDims.WF S55049x128 S50000x1 S50000x128 [1] [0] [] [0] [] 1 ![1, 128]
  dot_S5000x128_S128x128_S5000x128_1_0_0_1_n_n_wf : DotDims.WF S5000x128 S128x128 S5000x128 [1] [0] [0] [1] [] []
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S64x5000_S5000x128_S64x128_1_0_0_1_n_n_wf : DotDims.WF S64x5000 S5000x128 S64x128 [1] [0] [0] [1] [] []
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S55296x1024.size a
  hwx0_0 : ∀ i : grid0.Coords, EltTy.bits .f32 = 32 ∨ (Rect.block (s := S55296x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S55296x128.size a
  hwx0_2 : ∀ i : grid0.Coords, EltTy.bits .f32 = 32 ∨ (Rect.block (s := S55296x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def gather_S55049x128_S50000x1_S50000x128_1_0_n_n_0_1_1128 : GatherDims S55049x128 S50000x1 S50000x128 where
  offsetDims := [1]
  collapsedSliceDims := [0]
  operandBatchingDims := []
  startIndicesBatchingDims := []
  startIndexMap := [0]
  indexVectorDim := 1
  sliceSizes := ![1, 128]
  wf := gather_S55049x128_S50000x1_S50000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S64x5000_S5000x128_S64x128_1_0_0_1_n_n : DotDims S64x5000 S5000x128 S64x128 where
  lhsContracting := [1]
  rhsContracting := [0]
  lhsNonContracting := [0]
  rhsNonContracting := [1]
  lhsBatch := []
  rhsBatch := []
  wf := dot_S64x5000_S5000x128_S64x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v2) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v81) S64x128.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S500000 : Shape := ⟨1, ![500000]⟩
abbrev S55049x1024 : Shape := ⟨2, ![55049, 1024]⟩
abbrev S1152x128 : Shape := ⟨2, ![1152, 128]⟩
abbrev S128 : Shape := ⟨1, ![128]⟩
abbrev S128x128 : Shape := ⟨2, ![128, 128]⟩
abbrev S128x10 : Shape := ⟨2, ![128, 10]⟩
abbrev S10 : Shape := ⟨1, ![10]⟩
abbrev S2x500000 : Shape := ⟨2, ![2, 500000]⟩
abbrev S50000 : Shape := ⟨1, ![50000]⟩
abbrev S_ : Shape := ⟨0, ![]⟩
abbrev S50000x1 : Shape := ⟨2, ![50000, 1]⟩
abbrev S50000x1024 : Shape := ⟨2, ![50000, 1024]⟩
abbrev S50000x1152 : Shape := ⟨2, ![50000, 1152]⟩
abbrev S1x500000 : Shape := ⟨2, ![1, 500000]⟩
abbrev S550000 : Shape := ⟨1, ![550000]⟩
abbrev S550000x1 : Shape := ⟨2, ![550000, 1]⟩
abbrev S550000x128 : Shape := ⟨2, ![550000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 172
  | .vmem => 0
  | .smem => 0
  | _ => 0

abbrev hbmTy0_0 (i : Nat) : BufTy := match i % 128 with
  | 0 => ⟨S50000x128, .f32⟩
  | 1 => ⟨S500000, .f32⟩
  | 2 => ⟨S55049x1024, .f32⟩
  | 3 => ⟨S1152x128, .f32⟩
  | 4 => ⟨S128, .f32⟩
  | 5 => ⟨S128x128, .f32⟩
  | 6 => ⟨S128, .f32⟩
  | 7 => ⟨S128x10, .f32⟩
  | 8 => ⟨S10, .f32⟩
  | 9 => ⟨S2x500000, .i32⟩
  | 10 => ⟨S50000, .i32⟩
  | 11 => ⟨S50000, .i32⟩
  | 12 => ⟨S_, .i32⟩
  | 13 => ⟨S50000, .i32⟩
  | 14 => ⟨S50000, .i1⟩
  | 15 => ⟨S_, .i32⟩
  | 16 => ⟨S50000, .i32⟩
  | 17 => ⟨S50000, .i32⟩
  | 18 => ⟨S50000, .i32⟩
  | 19 => ⟨S50000x1, .i32⟩
  | 20 => ⟨S50000x1024, .f32⟩
  | 21 => ⟨S50000x1152, .f32⟩
  | 22 => ⟨S50000x128, .f32⟩
  | 23 => ⟨S1x500000, .i32⟩
  | 24 => ⟨S500000, .i32⟩
  | 25 => ⟨S1x500000, .i32⟩
  | 26 => ⟨S500000, .i32⟩
  | 27 => ⟨S50000, .i32⟩
  | 28 => ⟨S550000, .i32⟩
  | 29 => ⟨S550000, .i32⟩
  | 30 => ⟨S_, .f32⟩
  | 31 => ⟨S50000, .f32⟩
  | 32 => ⟨S550000, .f32⟩
  | 33 => ⟨S_, .f32⟩
  | 34 => ⟨S50000, .f32⟩
  | 35 => ⟨S550000x1, .i32⟩
  | 36 => ⟨S50000, .f32⟩
  | 37 => ⟨S_, .f32⟩
  | 38 => ⟨S50000, .f32⟩
  | 39 => ⟨S50000, .i1⟩
  | 40 => ⟨S50000, .f32⟩
  | 41 => ⟨S_, .f32⟩
  | 42 => ⟨S_, .f32⟩
  | 43 => ⟨S50000, .f32⟩
  | 44 => ⟨S50000, .f32⟩
  | 45 => ⟨S_, .i32⟩
  | 46 => ⟨S550000, .i32⟩
  | 47 => ⟨S550000, .i1⟩
  | 48 => ⟨S_, .i32⟩
  | 49 => ⟨S550000, .i32⟩
  | 50 => ⟨S550000, .i32⟩
  | 51 => ⟨S550000, .i32⟩
  | 52 => ⟨S550000x1, .i32⟩
  | 53 => ⟨S550000, .f32⟩
  | 54 => ⟨S550000, .f32⟩
  | 55 => ⟨S_, .i32⟩
  | 56 => ⟨S550000, .i32⟩
  | 57 => ⟨S550000, .i1⟩
  | 58 => ⟨S_, .i32⟩
  | 59 => ⟨S550000, .i32⟩
  | 60 => ⟨S550000, .i32⟩
  | 61 => ⟨S550000, .i32⟩
  | 62 => ⟨S550000x1, .i32⟩
  | 63 => ⟨S550000, .f32⟩
  | 64 => ⟨S550000, .f32⟩
  | 65 => ⟨S550000x1, .f32⟩
  | 66 => ⟨S_, .i32⟩
  | 67 => ⟨S550000, .i32⟩
  | 68 => ⟨S550000, .i1⟩
  | 69 => ⟨S_, .i32⟩
  | 70 => ⟨S550000, .i32⟩
  | 71 => ⟨S550000, .i32⟩
  | 72 => ⟨S550000, .i32⟩
  | 73 => ⟨S550000x1, .i32⟩
  | 74 => ⟨S550000x128, .f32⟩
  | 75 => ⟨S550000x128, .f32⟩
  | 76 => ⟨S550000x128, .f32⟩
  | 77 => ⟨S_, .f32⟩
  | 78 => ⟨S50000x128, .f32⟩
  | 79 => ⟨S550000x1, .i32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S50000x128, .f32⟩
  | 88 => ⟨S1x500000, .i32⟩
  | 89 => ⟨S500000, .i32⟩
  | 90 => ⟨S1x500000, .i32⟩
  | 91 => ⟨S500000, .i32⟩
  | 92 => ⟨S50000, .i32⟩
  | 93 => ⟨S550000, .i32⟩
  | 94 => ⟨S550000, .i32⟩
  | 95 => ⟨S_, .f32⟩
  | 96 => ⟨S50000, .f32⟩
  | 97 => ⟨S550000, .f32⟩
  | 98 => ⟨S_, .f32⟩
  | 99 => ⟨S50000, .f32⟩
  | 100 => ⟨S550000x1, .i32⟩
  | 101 => ⟨S50000, .f32⟩
  | 102 => ⟨S_, .f32⟩
  | 103 => ⟨S50000, .f32⟩
  | 104 => ⟨S50000, .i1⟩
  | 105 => ⟨S50000, .f32⟩
  | 106 => ⟨S_, .f32⟩
  | 107 => ⟨S_, .f32⟩
  | 108 => ⟨S50000, .f32⟩
  | 109 => ⟨S50000, .f32⟩
  | 110 => ⟨S_, .i32⟩
  | 111 => ⟨S550000, .i32⟩
  | 112 => ⟨S550000, .i1⟩
  | 113 => ⟨S_, .i32⟩
  | 114 => ⟨S550000, .i32⟩
  | 115 => ⟨S550000, .i32⟩
  | 116 => ⟨S550000, .i32⟩
  | 117 => ⟨S550000x1, .i32⟩
  | 118 => ⟨S550000, .f32⟩
  | 119 => ⟨S550000, .f32⟩
  | 120 => ⟨S_, .i32⟩
  | 121 => ⟨S550000, .i32⟩
  | 122 => ⟨S550000, .i1⟩
  | 123 => ⟨S_, .i32⟩
  | 124 => ⟨S550000, .i32⟩
  | 125 => ⟨S550000, .i32⟩
  | 126 => ⟨S550000, .i32⟩
  | 127 => ⟨S550000x1, .i32⟩
  | _ => ⟨S50000x128, .f32⟩

abbrev hbmTy0_1 (i : Nat) : BufTy := match i % 128 with
  | 0 => ⟨S550000, .f32⟩
  | 1 => ⟨S550000, .f32⟩
  | 2 => ⟨S550000x1, .f32⟩
  | 3 => ⟨S_, .i32⟩
  | 4 => ⟨S550000, .i32⟩
  | 5 => ⟨S550000, .i1⟩
  | 6 => ⟨S_, .i32⟩
  | 7 => ⟨S550000, .i32⟩
  | 8 => ⟨S550000, .i32⟩
  | 9 => ⟨S550000, .i32⟩
  | 10 => ⟨S550000x1, .i32⟩
  | 11 => ⟨S550000x128, .f32⟩
  | 12 => ⟨S550000x128, .f32⟩
  | 13 => ⟨S550000x128, .f32⟩
  | 14 => ⟨S_, .f32⟩
  | 15 => ⟨S50000x128, .f32⟩
  | 16 => ⟨S550000x1, .i32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S_, .f32⟩
  | 25 => ⟨S64x128, .f32⟩
  | 26 => ⟨S50000x1, .i32⟩
  | 27 => ⟨S64x128, .f32⟩
  | 28 => ⟨S_, .f32⟩
  | 29 => ⟨S50000, .f32⟩
  | 30 => ⟨S_, .f32⟩
  | 31 => ⟨S64, .f32⟩
  | 32 => ⟨S50000x1, .i32⟩
  | 33 => ⟨S64, .f32⟩
  | 34 => ⟨S_, .f32⟩
  | 35 => ⟨S64, .f32⟩
  | 36 => ⟨S64, .f32⟩
  | 37 => ⟨S64x1, .f32⟩
  | 38 => ⟨S64x128, .f32⟩
  | 39 => ⟨S64x128, .f32⟩
  | 40 => ⟨S64x10, .f32⟩
  | 41 => ⟨S1x10, .f32⟩
  | 42 => ⟨S64x10, .f32⟩
  | 43 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_call0_v0 : Ref sig .tc := ⟨.hbm, 42, rfl⟩
abbrev main_call0_v1 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_11 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_14 : Ref sig .tc := ⟨.hbm, 106, rfl⟩
abbrev main_call2_v0 : Ref sig .tc := ⟨.hbm, 107, rfl⟩
abbrev main_call2_v1 : Ref sig .tc := ⟨.hbm, 108, rfl⟩
abbrev main_v74 : Ref sig .tc := ⟨.hbm, 109, rfl⟩
abbrev main_c_15 : Ref sig .tc := ⟨.hbm, 110, rfl⟩
abbrev main_v75 : Ref sig .tc := ⟨.hbm, 111, rfl⟩
abbrev main_v76 : Ref sig .tc := ⟨.hbm, 112, rfl⟩
abbrev main_c_16 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_c_17 : Ref sig .tc := ⟨.hbm, 120, rfl⟩
abbrev main_v83 : Ref sig .tc := ⟨.hbm, 121, rfl⟩
abbrev main_v84 : Ref sig .tc := ⟨.hbm, 122, rfl⟩
abbrev main_c_18 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_19 : Ref sig .tc := ⟨.hbm, 131, rfl⟩
abbrev main_v92 : Ref sig .tc := ⟨.hbm, 132, rfl⟩
abbrev main_v93 : Ref sig .tc := ⟨.hbm, 133, rfl⟩
abbrev main_c_20 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_21 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_call3_cst : Ref sig .tc := ⟨.hbm, 149, rfl⟩
abbrev main_call3_v0 : Ref sig .tc := ⟨.hbm, 150, rfl⟩
abbrev main_v107 : Ref sig .tc := ⟨.hbm, 151, rfl⟩
abbrev main_cst_22 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_23 : Ref sig .tc := ⟨.hbm, 156, rfl⟩
abbrev main_v111 : Ref sig .tc := ⟨.hbm, 157, rfl⟩
abbrev main_cst_24 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_25 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x1024_S50000x1152_d1 : Shape.Concatenates [S50000x128, S50000x1024] S50000x1152 1
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S550000_S550000x1_0 : S550000.BroadcastsInDim S550000x1 (![0] : Fin 1 → Fin S550000x1.rank)
  bcast_S_S550000 : S_.BroadcastsInDim S550000 (![] : Fin 0 → Fin S550000.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S55049x1024_S50000x1_S50000x1024_1_0_n_n_0_1_11024_wf : GatherDims.WF S55049x1024 S50000x1 S50000x1024 [1] [0] [] [0] [] 1 ![1, 1024]
  dot_S50000x1152_S1152x128_S50000x128_1_0_0_1_n_n_wf : DotDims.WF S50000x1152 S1152x128 S50000x128 [1] [0] [0] [1] [] []
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S50000x128_S128x128_S50000x128_1_0_0_1_n_n_wf : DotDims.WF S50000x128 S128x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def gather_S55049x1024_S50000x1_S50000x1024_1_0_n_n_0_1_11024 : GatherDims S55049x1024 S50000x1 S50000x1024 where
  offsetDims := [1]
  collapsedSliceDims := [0]
  operandBatchingDims := []
  startIndicesBatchingDims := []
  startIndexMap := [0]
  indexVectorDim := 1
  sliceSizes := ![1, 1024]
  wf := gather_S55049x1024_S50000x1_S50000x1024_1_0_n_n_0_1_11024_wf
def dot_S50000x1152_S1152x128_S50000x128_1_0_0_1_n_n : DotDims S50000x1152 S1152x128 S50000x128 where
  lhsContracting := [1]
  rhsContracting := [0]
  lhsNonContracting := [0]
  rhsNonContracting := [1]
  lhsBatch := []
  rhsBatch := []
  wf := dot_S50000x1152_S1152x128_S50000x128_1_0_0_1_n_n_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.Spec.lean ====
import Idealize.ShloMosaic.PureOps.Ideal
import Idealize.ShloMosaic.Lib.ValueIdx

/-!
# The four dense stages as whole-array functions over the extended reals

Each stage of the network that runs as a tiled kernel is, read at the exact instance, one function of whole
arrays: a matrix product row by row, a product plus a gathered row, a rectified affine map followed by a
product, and a masked column sum. Rows are the first coordinate, columns the second.
-/

noncomputable section

open scoped BigOperators

namespace Cert.Spec

open Idealize.ShloMosaic Idealize.ShloMosaic.ValueIdx

/-- A matrix of extended reals with `a` rows and `b` columns. -/
abbrev Mat (a b : Nat) : Type := (⟨2, ![a, b]⟩ : Shape).Idx → EReal

/-- Every row of the (padded) table times the embedding half of the first weight matrix:
    entry (r, j) is the sum over k of T(r, k) · W(k, j). -/
def proj0 (T : Mat 55296 1024) (W : Mat 1024 128) : Mat 55296 128 :=
  fun i => ∑ k : Fin 1024, T (ix2 (⟨(i 0).val, (i 0).isLt⟩ : Fin 55296) k) * W (ix2 k (⟨(i 1).val, (i 1).isLt⟩ : Fin 128))

/-- The feature half of the first projection plus the gathered projected row:
    entry (n, j) is the sum over k of X(n, k) · W(k, j), plus G(n, j). -/
def proj1 (X : Mat 50000 128) (W : Mat 128 128) (G : Mat 50000 128) : Mat 50000 128 :=
  fun i => (∑ k : Fin 128, X (ix2 (⟨(i 0).val, (i 0).isLt⟩ : Fin 50000) k) * W (ix2 k (⟨(i 1).val, (i 1).isLt⟩ : Fin 128))) + G i

/-- Bias, rectifier, then the second weight matrix:
    entry (n, j) is the sum over k of max(C(n, k) + b(0, k), 0) · W(k, j). -/
def layer2 (C : Mat 50000 128) (b : Mat 1 128) (W : Mat 128 128) : Mat 50000 128 :=
  fun i => ∑ k : Fin 128, max (C (ix2 (⟨(i 0).val, (i 0).isLt⟩ : Fin 50000) k) + b (ix2 (0 : Fin 1) k)) 0
    * W (ix2 k (⟨(i 1).val, (i 1).isLt⟩ : Fin 128))

/-- Bias, rectifier, then the sum of the rows a mask column selects:
    entry (g, h) is the sum over nodes n of M(n, g) · max(C(n, h) + b(0, h), 0). -/
def pool (C : Mat 50000 128) (b : Mat 1 128) (M : Mat 50000 64) : Mat 64 128 :=
  fun i => ∑ n : Fin 50000, M (ix2 n (⟨(i 0).val, (i 0).isLt⟩ : Fin 64))
    * max (C (ix2 n (⟨(i 1).val, (i 1).isLt⟩ : Fin 128)) + b (ix2 (0 : Fin 1) (⟨(i 1).val, (i 1).isLt⟩ : Fin 128))) 0

end Cert.Spec

end
-- ==== Proof.Vocab.lean ====
import proofs.«426023_j33397665693793_2_alg».proof.Proof.Gen.ReferenceIdeal.Read

/-!
# The network's shared stages, named once

Both programs apply the same host functions around their dense stages: the degree-normalised message
passing over the edge list (a gather of source rows, a scaling by the edge norm, a scatter-add onto the
destination rows), the bias and rectifier, the pooling tail (division by the segment counts, the output
layer). They are named here as functions of the values they are applied to, so that the two sides are
compared stage by stage and these functions are never opened.
-/

noncomputable section

namespace Cert.Vocab

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- The node identifiers as a column of start indices, a negative one moved up by the table's height. -/
def nodeIdx (x11 : (⟨S50000, .i32⟩ : BufTy).Contents (Elt F)) : (⟨S50000x1, .i32⟩ : BufTy).Contents (Elt F) :=
  val_main_v5 (F := F) x11

/-- One round of message passing of the rows `X`: every edge (and self loop) gathers its source row, scales it by
    its norm (the product of the two inverse square-root degrees and the edge weight), and adds it onto its
    destination row, from zero. -/
def msg (x1 : (⟨S500000, .f32⟩ : BufTy).Contents (Elt F)) (x9 : (⟨S2x500000, .i32⟩ : BufTy).Contents (Elt F)) (X : (⟨S50000x128, .f32⟩ : BufTy).Contents (Elt F)) :
    (⟨S50000x128, .f32⟩ : BufTy).Contents (Elt F) :=
  Host.scatterAdd scatter_S50000x128_S550000x1_S550000x128_1_0_0_1 (val_main_v51 (F := F)) (val_main_v52 (F := F) x9)
    (mulf (val_main_v49 (F := F) x1 x9)
      (Host.gather gather_S50000x128_S550000x1_S550000x128_1_0_n_n_0_1_1128 X (val_main_v47 (F := F) x9)))

/-- Add the bias to every row, then the rectifier. -/
def rect (X : (⟨S50000x128, .f32⟩ : BufTy).Contents (Elt F)) (b : (⟨S128, .f32⟩ : BufTy).Contents (Elt F)) : (⟨S50000x128, .f32⟩ : BufTy).Contents (Elt F) :=
  maximumf (addf X (val_main_v55 (F := F) b)) (val_main_call1_v0 (F := F))

/-- The second layer's dense product. -/
def dense2 (R : (⟨S50000x128, .f32⟩ : BufTy).Contents (Elt F)) (x5 : (⟨S128x128, .f32⟩ : BufTy).Contents (Elt F)) : (⟨S50000x128, .f32⟩ : BufTy).Contents (Elt F) :=
  Host.dotGeneral dot_S50000x128_S128x128_S50000x128_1_0_0_1_n_n none R x5

/-- The per-graph sums of the rows `R`: a scatter-add by graph identifier, from zero. -/
def segSum (R : (⟨S50000x128, .f32⟩ : BufTy).Contents (Elt F)) (x10 : (⟨S50000, .i32⟩ : BufTy).Contents (Elt F)) : (⟨S64x128, .f32⟩ : BufTy).Contents (Elt F) :=
  Host.scatterAdd scatter_S64x128_S50000x1_S50000x128_1_0_0_1 (val_main_v108 (F := F)) (val_main_v109 (F := F) x10) R

/-- From the per-graph sums to the output: divide by the graph sizes (at least one), the output layer, its bias. -/
def tail (PS : (⟨S64x128, .f32⟩ : BufTy).Contents (Elt F)) (x10 : (⟨S50000, .i32⟩ : BufTy).Contents (Elt F)) (x7 : (⟨S128x10, .f32⟩ : BufTy).Contents (Elt F)) (x8 : (⟨S10, .f32⟩ : BufTy).Contents (Elt F)) :
    (⟨S64x10, .f32⟩ : BufTy).Contents (Elt F) :=
  addf (Host.dotGeneral dot_S64x128_S128x10_S64x10_1_0_0_1_n_n none (Host.divf PS (val_main_v118 (F := F) x10)) x7)
    (val_main_v122 (F := F) x8)

/-- The reference's result is these stages composed: two rounds of message passing, each after a dense product
    and before bias and rectifier, then the per-graph sums and the tail. -/
theorem ref_eq (x0 : (⟨S50000x128, .f32⟩ : BufTy).Contents (Elt F)) (x1 : (⟨S500000, .f32⟩ : BufTy).Contents (Elt F)) (x2 : (⟨S55049x1024, .f32⟩ : BufTy).Contents (Elt F)) (x3 : (⟨S1152x128, .f32⟩ : BufTy).Contents (Elt F))
    (x4 : (⟨S128, .f32⟩ : BufTy).Contents (Elt F)) (x5 : (⟨S128x128, .f32⟩ : BufTy).Contents (Elt F)) (x6 : (⟨S128, .f32⟩ : BufTy).Contents (Elt F)) (x7 : (⟨S128x10, .f32⟩ : BufTy).Contents (Elt F)) (x8 : (⟨S10, .f32⟩ : BufTy).Contents (Elt F))
    (x9 : (⟨S2x500000, .i32⟩ : BufTy).Contents (Elt F)) (x10 x11 : (⟨S50000, .i32⟩ : BufTy).Contents (Elt F)) :
    val_main_v123 (F := F) x0 x1 x2 x3 x4 x5 x6 x7 x8 x9 x10 x11
      = tail (segSum (rect (msg x1 x9 (dense2 (rect (msg x1 x9 (val_main_v8 (F := F) x0 x2 x3 x11)) x4) x5)) x6) x10) x10 x7 x8 := by
  rfl

end Cert.Vocab

end
-- ==== Proof.KTerms.lean ====
import proofs.«426023_j33397665693793_2_alg».proof.KernelIdeal
import proofs.«426023_j33397665693793_2_alg».proof.Proof.Gen.KernelIdeal

/-!
# The host operations the tiled program applies around its dense stages

The table is padded with zero rows up to a multiple of the tile height; the first weight matrix is cut into
its feature rows and its embedding rows; the projected table's true rows are kept and gathered by node
identifier; a bias vector is laid out as one row; the graph identifiers become a 0/1 mask with one column
per graph.
-/

noncomputable section

namespace Cert.KTerms

open Cert.KernelIdeal Cert.KernelIdeal.Facts₀
open Idealize.ShloMosaic Idealize.ShloMosaic.TcCoe Idealize.SL.Sem

variable {F : FTy → Type} [FloatOps F]

/-- The embedding table with 247 zero rows appended: 55296 rows, twenty-seven tiles of 2048. -/
def padded (x2 : (⟨S55049x1024, .f32⟩ : BufTy).Contents (Elt F)) : (⟨S55296x1024, .f32⟩ : BufTy).Contents (Elt F) :=
  pad S55296x1024 ![0, 0] ![247, 0] ![0, 0] x2 (sitofp .f32 (constantI S_ 32 0#32)) pads_S55049x1024_S55296x1024_02470_000 h_S_

/-- Rows 128 … 1151 of the first weight matrix: the rows that multiply the embedding. -/
def wEmb (x3 : (⟨S1152x128, .f32⟩ : BufTy).Contents (Elt F)) : (⟨S1024x128, .f32⟩ : BufTy).Contents (Elt F) :=
  extractStridedSlice S1024x128 ![128, 0] x3 slices_S1152x128_S1024x128_128_0

/-- Rows 0 … 127 of the first weight matrix: the rows that multiply the node features. -/
def wFeat (x3 : (⟨S1152x128, .f32⟩ : BufTy).Contents (Elt F)) : (⟨S128x128, .f32⟩ : BufTy).Contents (Elt F) :=
  extractStridedSlice S128x128 ![0, 0] x3 slices_S1152x128_S128x128_0_0

/-- The first 55049 rows of the projected padded table: the true table's rows. -/
def rows (p : (⟨S55296x128, .f32⟩ : BufTy).Contents (Elt F)) : (⟨S55049x128, .f32⟩ : BufTy).Contents (Elt F) :=
  extractStridedSlice S55049x128 ![0, 0] p slices_S55296x128_S55049x128_0_0

/-- One projected row per node, taken at the node's (clamped) identifier. -/
def gatherRows (p : (⟨S55049x128, .f32⟩ : BufTy).Contents (Elt F)) (idx : (⟨S50000x1, .i32⟩ : BufTy).Contents (Elt F)) : (⟨S50000x128, .f32⟩ : BufTy).Contents (Elt F) :=
  Host.gather gather_S55049x128_S50000x1_S50000x128_1_0_n_n_0_1_1128 p idx

/-- A bias vector as a matrix of one row. -/
def biasRow (b : (⟨S128, .f32⟩ : BufTy).Contents (Elt F)) : (⟨S1x128, .f32⟩ : BufTy).Contents (Elt F) :=
  shapeCast S1x128 b shapeCasts_S128_S1x128

/-- The graph mask: entry (n, g) is one when node n's graph identifier is g, else zero. -/
def graphMask (x10 : (⟨S50000, .i32⟩ : BufTy).Contents (Elt F)) : (⟨S50000x64, .f32⟩ : BufTy).Contents (Elt F) :=
  uitofp .f32 (cmpi .eq
    (broadcastInDim S50000x64 ![0, 1] bcast_S50000x1_S50000x64_0_1 (broadcastInDim S50000x1 ![0] bcast_S50000_S50000x1_0 x10))
    (broadcastInDim S50000x64 ![0, 1] bcast_S1x64_S50000x64_0_1 (broadcastInDim S1x64 ![1] bcast_S64_S1x64_1 (iotaInDim S64 32 0))))

end Cert.KTerms

end
-- ==== Proof.Region0.lean ====
import proofs.«426023_j33397665693793_2_alg».proof.Proof.Gen.KernelIdeal.Frame
import proofs.«426023_j33397665693793_2_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! # The table projection: every block of rows is the matrix product's block -/

namespace Cert.Region0

/-- The two zero offsets of a whole-block access, as the constant zero function. -/
theorem zero_offsets : (![0, 0] : Fin 2 → Nat) = fun _ => 0 := funext fun a => by fin_cases a <;> rfl

/-! ## One entry of a block product

The matrix unit contracts the column axis of the 2048×1024 block with the row axis of the 1024×128 weight block. -/

/-- The row coordinate of the left operand's index is the output's row. -/
theorem lhs_tile_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
/-- The column coordinate of the left operand's index is the contracted index. -/
theorem lhs_tile_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
/-- The row coordinate of the right operand's index is the contracted index. -/
theorem rhs_tile_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
/-- The column coordinate of the right operand's index is the output's column. -/
theorem rhs_tile_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- Entry (p, q) of the product of a 2048×1024 block and the 1024×128 weight block, with a zero accumulator and the
    narrowing of both operands the identity on extended reals, is the sum over k of x(p, k) · w(k, q). -/
theorem tile_entry (x0 : Vec Ideal S2048x1024 .f32) (x1 : Vec Ideal S1024x128 .f32) (p : Fin 2048) (q : Fin 128) :
    (k0_pay1 (F := Ideal) x0 x1) (ix2 p q) = ∑ k : Fin 1024, x0 (ix2 p k) * x1 (ix2 k q) := by
  unfold k0_pay1
  rw [shapeCast_self, shapeCast_self]
  refine (Ideal.matmul_constant_zero_apply dot_S2048x1024_S1024x128_S2048x128_1_0_0_1_n_n none _ _ (ix2 p q)).trans ?_
  rw [← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 p q) ((contrEquiv1 dot_S2048x1024_S1024x128_S2048x128_1_0_0_1_n_n 1024 rfl rfl).symm k) = ix2 p k := funext fun a => Fin.ext (by
    match a with
    | ⟨0, _⟩ => exact lhs_tile_0 _ _
    | ⟨1, _⟩ => exact (lhs_tile_1 _ _).trans hk)
  have er : dot_S2048x1024_S1024x128_S2048x128_1_0_0_1_n_n.rhsIdx (ix2 p q) ((contrEquiv1 dot_S2048x1024_S1024x128_S2048x128_1_0_0_1_n_n 1024 rfl rfl).symm k) = ix2 k q := funext fun a => Fin.ext (by
    match a with
    | ⟨0, _⟩ => exact (rhs_tile_0 _ _).trans hk
    | ⟨1, _⟩ => exact rhs_tile_1 _ _)
  rw [el, er]
  rfl

variable (V : (c : Dev nD) → (b : Ref sig .tc) → Buf (Elt Ideal) ((c : Thread nD τ).loc b))

/-! ## The blocks the grid point reads

At grid point t the table window is rows 2048·t … 2048·t + 2047 of the padded table (all 1024 columns), the weight
window is the whole 1024×128 weight matrix, and the output window is rows 2048·t … 2048·t + 2047 of the result. -/

/-- The block indices of the three windows at every grid point: row block t and column block 0 for the table and
    the result, block (0, 0) for the weights. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the table block at point t is entry (2048·t + p, k) of the table. -/
theorem table_block_entry (c : Dev nD) (t : Fin cfg0.N) (p : Fin 2048) (k : Fin 1024) (r : Fin 55296)
    (hr : r.val = 2048 * t.val + p.val) :
    (iblk0 V c 0 t : Vec Ideal S2048x1024 .f32) (ix2 p k) = (V c main_v2 : S55296x1024.Idx → Elt Ideal .f32) (ix2 r k) := by
  obtain ⟨e0, e1, -, -, -, -⟩ := block_indices t
  unfold iblk0
  rw [View.read_apply]
  show V c main_v2 (((cfg0.win 0).blk t).view.emb (ix2 p k)) = V c main_v2 (ix2 r k)
  congr 1
  funext a
  apply Fin.ext
  match a with
  | ⟨0, _⟩ => show win0_0.index t (0 : Fin 2) * 2048 + 1 * p.val = r.val; rw [e0, hr]; omega
  | ⟨1, _⟩ => show win0_0.index t (1 : Fin 2) * 1024 + 1 * k.val = k.val; rw [e1]; omega

/-- The weight block at every point is the weight matrix itself. -/
theorem weight_block_entry (c : Dev nD) (t : Fin cfg0.N) (k : Fin 1024) (q : Fin 128) :
    (iblk0 V c 1 t : Vec Ideal S1024x128 .f32) (ix2 k q) = (V c main_v1 : S1024x128.Idx → Elt Ideal .f32) (ix2 k q) := by
  obtain ⟨-, -, e2, e3, -, -⟩ := block_indices t
  unfold iblk0
  rw [View.read_apply]
  show V c main_v1 (((cfg0.win 1).blk t).view.emb (ix2 k q)) = V c main_v1 (ix2 k q)
  congr 1
  funext a
  apply Fin.ext
  match a with
  | ⟨0, _⟩ => show win0_1.index t (0 : Fin 2) * 1024 + 1 * k.val = k.val; rw [e2]; omega
  | ⟨1, _⟩ => show win0_1.index t (1 : Fin 2) * 128 + 1 * q.val = q.val; rw [e3]; omega

/-- The block product at point t, read at an index y of the block, is the whole product at row 2048·t + y₀ and column y₁. -/
theorem block_product_entry (c : Dev nD) (t : Fin cfg0.N) (y : S2048x128.Idx) (i : S55296x128.Idx)
    (h0 : (i 0).val = 2048 * t.val + (y 0).val) (h1 : (i 1).val = (y 1).val) :
    (k0_pay1 (F := Ideal) (iblk0 V c 0 t) (iblk0 V c 1 t)) y = Cert.Spec.proj0 (V c main_v2) (V c main_v1) i := by
  obtain ⟨p, q, rfl⟩ : ∃ (p : Fin 2048) (q : Fin 128), y = ix2 p q := ⟨y 0, y 1, eq_ix2 y⟩
  refine (tile_entry (iblk0 V c 0 t) (iblk0 V c 1 t) p q).trans ?_
  unfold Cert.Spec.proj0
  refine Finset.sum_congr rfl fun k _ => ?_
  rw [table_block_entry V c t p k ⟨(i 0).val, (i 0).isLt⟩ h0, weight_block_entry V c t k q]
  have eq : (⟨(i 1).val, (i 1).isLt⟩ : Fin 128) = q := Fin.ext h1
  rw [eq]

/-! ## From blocks to the array -/

/-- What point t writes back is block t of the whole product. -/
theorem flushed_block (c : Dev nD) (t : Fin cfg0.N) :
    (dat0 (F := Ideal) V c).flushed 2 t
      = ((cfg0.win 2).blk t).view.read (Elt Ideal) (Cert.Spec.proj0 (V c main_v2) (V c main_v1)) := by
  show (cfg0.win 2).cut (grid0.coords t) ((dat0 (F := Ideal) V c).after 2 t) = _
  rw [after0_2]
  unfold out0_2
  rw [View.canon_unit_zero zero_offsets]
  simp only [View.ld_unit_zero (S := S2048x1024) zero_offsets, View.ld_unit_zero (S := S1024x128) zero_offsets]
  obtain ⟨-, -, -, -, e4, e5⟩ := block_indices t
  funext j
  show (k0_pay1 (F := Ideal) (iblk0 V c 0 t) (iblk0 V c 1 t)) j
    = Cert.Spec.proj0 (V c main_v2) (V c main_v1) (((cfg0.win 2).blk t).view.emb j)
  refine block_product_entry V c t j _ ?_ ?_
  · show win0_2.index t (0 : Fin 2) * 2048 + 1 * (j 0).val = 2048 * t.val + (j 0).val
    rw [e4]; omega
  · show win0_2.index t (1 : Fin 2) * 128 + 1 * (j 1).val = (j 1).val
    rw [e5]; omega

/-- An index of the result is in point t's block iff each coordinate is in the block's range on its axis. -/
theorem mem_block (t : Fin cfg0.N) (i : S55296x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v3).slice (win0_2.rect t)).set ↔ _
  rw [View.set_slice_whole, Rect.mem_set_unit]
  exact Iff.rfl

/-- Every row r of the result lies in the block of point r / 2048. -/
theorem covered (i : S55296x128.Idx) :
    ∃ t : Fin cfg0.N, (cfg0.win 2).flush t = true ∧ i ∈ ((cfg0.win 2).blk t).view.set := by
  have hi0 : (i 0).val < 55296 := (i 0).isLt
  have hi1 : (i 1).val < 128 := (i 1).isLt
  have hN : cfg0.N = 27 := N_0
  let t : Fin cfg0.N := ⟨(i 0).val / 2048, by rw [hN]; omega⟩
  obtain ⟨-, -, -, -, e4, e5⟩ := block_indices t
  have ht : t.val = (i 0).val / 2048 := rfl
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; rw [e4, ht]; omega
  | ⟨1, _⟩ => show win0_2.index t (1 : Fin 2) * 128 ≤ (i 1).val ∧ (i 1).val < win0_2.index t (1 : Fin 2) * 128 + 128; rw [e5]; omega

/-- After the last grid point the output array of the first tiled call is the whole matrix product of its two operand arrays. -/
theorem arr (c : Dev nD) :
    (dat0 (F := Ideal) V c).arrAt 2 cfg0.N = Cert.Spec.proj0 (V c main_v2) (V c main_v1) :=
  (dat0 (F := Ideal) V c).arrAt_eq_of_cover 2 (Cert.Spec.proj0 (V c main_v2) (V c main_v1))
    (fun t _ => flushed_block V c t) covered

end Cert.Region0

end
-- ==== Proof.Region1.lean ====
import proofs.«426023_j33397665693793_2_alg».proof.Proof.Gen.KernelIdeal.Frame
import proofs.«426023_j33397665693793_2_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! # The feature projection plus the gathered rows -/

namespace Cert.Region1

/-- The two zero offsets of a whole-block access, as the constant zero function. -/
theorem zero_offsets : (![0, 0] : Fin 2 → Nat) = fun _ => 0 := funext fun a => by fin_cases a <;> rfl

/-! ## One entry of a feature block times the weights, plus the gathered block

The product contracts the 128 feature columns of a 5000×128 block of nodes with the 128 rows of the weight matrix. -/

/-- The row coordinate of the feature operand's index is the output's row (the node). -/
theorem lhs_nodes_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The column coordinate of the feature operand's index is the contracted feature. -/
theorem lhs_nodes_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The row coordinate of the weight operand's index is the contracted feature. -/
theorem rhs_nodes_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The column coordinate of the weight operand's index is the output's column. -/
theorem rhs_nodes_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of what a grid point stores: the sum over the 128 features k of x(p, k) · w(k, q) (zero accumulator,
    the narrowing of both operands the identity on extended reals), plus the gathered entry g(p, q). -/
theorem tile_entry (x0 : Vec Ideal S5000x128 .f32) (x1 : Vec Ideal S128x128 .f32) (x2 : Vec Ideal S5000x128 .f32)
    (p : Fin 5000) (q : Fin 128) :
    (k1_pay1 (F := Ideal) x0 x1 x2) (ix2 p q) = (∑ k : Fin 128, x0 (ix2 p k) * x1 (ix2 k q)) + x2 (ix2 p q) := by
  unfold k1_pay1
  rw [shapeCast_self, shapeCast_self]
  refine (addf_apply _ _ (ix2 p q)).trans ?_
  refine congrArg (· + x2 (ix2 p q)) ?_
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_nodes_0 _ _
    | ⟨1, _⟩ => exact (lhs_nodes_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_nodes_0 _ _).trans hk
    | ⟨1, _⟩ => exact rhs_nodes_1 _ _)
  rw [el, er]
  rfl

variable (V : (c : Dev nD) → (b : Ref sig .tc) → Buf (Elt Ideal) ((c : Thread nD τ).loc b))

/-! ## The blocks the grid point reads

At grid point t the feature window is nodes 5000·t … 5000·t + 4999 of the feature array (all 128 columns), the weight
window is the whole 128×128 weight matrix, the gathered window is the same 5000 nodes of the gathered array, and the
output window the same 5000 nodes of the result. -/

/-- The block indices of the four windows at every grid point: row block t and column block 0 for the features, the
    gathered rows and the result, block (0, 0) for the weights. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Entry (p, k) of the feature block at point t is entry (5000·t + p, k) of the feature array. -/
theorem feature_block_entry (c : Dev nD) (t : Fin cfg1.N) (p : Fin 5000) (k : Fin 128) (r : Fin 50000)
    (hr : r.val = 5000 * t.val + p.val) :
    (iblk1 V c 0 t : Vec Ideal S5000x128 .f32) (ix2 p k) = (V c main_arg0 : S50000x128.Idx → Elt Ideal .f32) (ix2 r k) := by
  obtain ⟨e0, e1, -, -, -, -, -, -⟩ := block_indices t
  unfold iblk1
  rw [View.read_apply]
  show V c main_arg0 (((cfg1.win 0).blk t).view.emb (ix2 p k)) = V c main_arg0 (ix2 r k)
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The weight block at every point is the weight matrix itself. -/
theorem weight_block_entry (c : Dev nD) (t : Fin cfg1.N) (k : Fin 128) (q : Fin 128) :
    (iblk1 V c 1 t : Vec Ideal S128x128 .f32) (ix2 k q) = (V c main_v0 : S128x128.Idx → Elt Ideal .f32) (ix2 k q) := by
  obtain ⟨-, -, e2, e3, -, -, -, -⟩ := block_indices t
  unfold iblk1
  rw [View.read_apply]
  show V c main_v0 (((cfg1.win 1).blk t).view.emb (ix2 k q)) = V c main_v0 (ix2 k q)
  congr 1
  funext a
  apply Fin.ext
  match a with
  | ⟨0, _⟩ => show win1_1.index t (0 : Fin 2) * 128 + 1 * k.val = k.val; rw [e2]; omega
  | ⟨1, _⟩ => show win1_1.index t (1 : Fin 2) * 128 + 1 * q.val = q.val; rw [e3]; omega

/-- Entry (p, q) of the gathered block at point t is the gathered array's entry at node 5000·t + p and column q. -/
theorem gathered_block_entry (c : Dev nD) (t : Fin cfg1.N) (p : Fin 5000) (q : Fin 128) (i : S50000x128.Idx)
    (h0 : (i 0).val = 5000 * t.val + p.val) (h1 : (i 1).val = q.val) :
    (iblk1 V c 2 t : Vec Ideal S5000x128 .f32) (ix2 p q) = (V c main_v11 : S50000x128.Idx → Elt Ideal .f32) i := by
  obtain ⟨-, -, -, -, e4, e5, -, -⟩ := block_indices t
  unfold iblk1
  rw [View.read_apply]
  show V c main_v11 (((cfg1.win 2).blk t).view.emb (ix2 p q)) = V c main_v11 i
  congr 1
  funext a
  apply Fin.ext
  match a with
  | ⟨0, _⟩ => show win1_2.index t (0 : Fin 2) * 5000 + 1 * p.val = (i 0).val; rw [e4, h0]; omega
  | ⟨1, _⟩ => show win1_2.index t (1 : Fin 2) * 128 + 1 * q.val = (i 1).val; rw [e5, h1]; omega

/-- What point t stores, read at an index y of the block, is the whole result at node 5000·t + y₀ and column y₁. -/
theorem block_result_entry (c : Dev nD) (t : Fin cfg1.N) (y : S5000x128.Idx) (i : S50000x128.Idx)
    (h0 : (i 0).val = 5000 * t.val + (y 0).val) (h1 : (i 1).val = (y 1).val) :
    (k1_pay1 (F := Ideal) (iblk1 V c 0 t) (iblk1 V c 1 t) (iblk1 V c 2 t)) y
      = Cert.Spec.proj1 (V c main_arg0) (V c main_v0) (V c main_v11) i := by
  obtain ⟨p, q, rfl⟩ : ∃ (p : Fin 5000) (q : Fin 128), y = ix2 p q := ⟨y 0, y 1, eq_ix2 y⟩
  refine (tile_entry (iblk1 V c 0 t) (iblk1 V c 1 t) (iblk1 V c 2 t) p q).trans ?_
  unfold Cert.Spec.proj1
  rw [gathered_block_entry V c t p q i h0 h1]
  refine congrArg (· + (V c main_v11 : S50000x128.Idx → Elt Ideal .f32) i) ?_
  refine Finset.sum_congr rfl fun k _ => ?_
  rw [feature_block_entry V c t p k ⟨(i 0).val, (i 0).isLt⟩ h0, weight_block_entry V c t k q]
  have eq : (⟨(i 1).val, (i 1).isLt⟩ : Fin 128) = q := Fin.ext h1
  rw [eq]

/-! ## From blocks to the array -/

/-- What point t writes back is block t of the whole result. -/
theorem flushed_block (c : Dev nD) (t : Fin cfg1.N) :
    (dat1 (F := Ideal) V c).flushed 3 t
      = ((cfg1.win 3).blk t).view.read (Elt Ideal) (Cert.Spec.proj1 (V c main_arg0) (V c main_v0) (V c main_v11)) := by
  show (cfg1.win 3).cut (grid1.coords t) ((dat1 (F := Ideal) V c).after 3 t) = _
  rw [after1_3]
  unfold out1_3
  rw [View.canon_unit_zero zero_offsets]
  simp only [View.ld_unit_zero (S := S5000x128) zero_offsets, View.ld_unit_zero (S := S128x128) zero_offsets]
  obtain ⟨-, -, -, -, -, -, e6, e7⟩ := block_indices t
  funext j
  show (k1_pay1 (F := Ideal) (iblk1 V c 0 t) (iblk1 V c 1 t) (iblk1 V c 2 t)) j
    = Cert.Spec.proj1 (V c main_arg0) (V c main_v0) (V c main_v11) (((cfg1.win 3).blk t).view.emb j)
  refine block_result_entry V c t j _ ?_ ?_
  · show win1_3.index t (0 : Fin 2) * 5000 + 1 * (j 0).val = 5000 * t.val + (j 0).val
    rw [e6]; omega
  · show win1_3.index t (1 : Fin 2) * 128 + 1 * (j 1).val = (j 1).val
    rw [e7]; omega

/-- An index of the result is in point t's block iff each coordinate is in the block's range on its axis. -/
theorem mem_block (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v12).slice (win1_3.rect t)).set ↔ _
  rw [View.set_slice_whole, Rect.mem_set_unit]
  exact Iff.rfl

/-- Every node n of the result lies in the block of point n / 5000. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, e6, e7⟩ := block_indices t
  have ht : t.val = (i 0).val / 5000 := rfl
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 128 ≤ (i 1).val ∧ (i 1).val < win1_3.index t (1 : Fin 2) * 128 + 128; rw [e7]; omega

/-- After the last grid point the output array of the second tiled call is the product of the features with the
    feature half of the weights, plus the gathered array, entry by entry. -/
theorem arr (c : Dev nD) :
    (dat1 (F := Ideal) V c).arrAt 3 cfg1.N = Cert.Spec.proj1 (V c main_arg0) (V c main_v0) (V c main_v11) :=
  (dat1 (F := Ideal) V c).arrAt_eq_of_cover 3 (Cert.Spec.proj1 (V c main_arg0) (V c main_v0) (V c main_v11))
    (fun t _ => flushed_block V c t) covered

end Cert.Region1

end
-- ==== Proof.Region2.lean ====
import proofs.«426023_j33397665693793_2_alg».proof.Proof.Gen.KernelIdeal.Frame
import proofs.«426023_j33397665693793_2_alg».proof.Proof.Spec
import Idealize.ShloMosaic.Lib.Pipeline.Value
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! # Bias, rectifier and the second weight matrix -/

namespace Cert.Region2

variable (V : (c : Dev nD) → (b : Ref sig .tc) → Buf (Elt Ideal) ((c : Thread nD τ).loc b))

/-! ## One block's product at an entry

The body adds the bias row to every row of its 5000 x 128 block, rectifies, and multiplies by the 128 x 128 weight
matrix, accumulating into zero. Entry (p, q) of what it stores is therefore the sum over k of
max(x(p, k) + b(0, k), 0) * w(k, q). -/

/-- The two offsets of a whole-buffer access are zero. -/
theorem zero_offsets : (![0, 0] : Fin 2 → Nat) = fun _ => 0 := funext fun a => by fin_cases a <;> rfl

/-- The left factor of the product at output entry `i` and contraction index `q` keeps the row of `i`. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column is the contraction index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right factor's row is the contraction index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column is the column of `i`. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the stored block: the sum over k of the rectified, biased x(p, k) times w(k, q). -/
theorem block_entry (x : Vec Ideal S5000x128 .f32) (b : Vec Ideal S1x128 .f32) (w : Vec Ideal S128x128 .f32)
    (p : Fin 5000) (q : Fin 128) :
    k2_pay1 (F := Ideal) x b w (ix2 p q)
      = ∑ k : Fin 128, max (x (ix2 p k) + b (ix2 (0 : Fin 1) k)) 0 * w (ix2 k q) := by
  unfold k2_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]
  rw [truncf_apply, truncf_apply, maximumf_apply, addf_apply, shapeCast_self, shapeCast_self, broadcastTo_1b_ab_apply,
    broadcast_apply, Ideal.ofBits_def, Ideal.ofBits_zero_f32]

/-! ## Which rows a grid point's blocks are

Along the ten grid points the input block and the output block move together down the rows, 5000 at a time; the
bias row and the weight matrix are read whole at every point. -/

/-- The block indices of the four windows at grid point `t`: the row index of the input and of the output is `t`,
    every other index is zero. -/
theorem block_index : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point `t` writes back is block `t` of the whole-array product: rows 5000 t … 5000 t + 4999. -/
theorem flushed_eq (c : Dev nD) (t : Fin cfg2.N) :
    (dat2 (F := Ideal) V c).flushed 3 t
      = ((cfg2.win 3).blk t).view.read (Elt Ideal) (Cert.Spec.layer2 (V c main_v57) (V c main_v58) (V c main_arg5)) := by
  show (cfg2.win 3).cut (grid2.coords t) ((dat2 (F := Ideal) V c).after 3 t) = _
  rw [after2_3]
  unfold out2_3
  rw [View.canon_unit_zero zero_offsets]
  simp only [View.ld_unit_zero (S := S5000x128) zero_offsets, View.ld_unit_zero (S := S1x128) zero_offsets,
    View.ld_unit_zero (S := S128x128) zero_offsets]
  obtain ⟨e0, e1, e2, e3, e4, e5, e6, e7⟩ := block_index t
  refine funext fun (j : S5000x128.Idx) => ?_
  obtain ⟨p, q, rfl⟩ : ∃ (p : Fin 5000) (q : Fin 128), j = ix2 p q := ⟨j 0, j 1, eq_ix2 j⟩
  show k2_pay1 (F := Ideal) (iblk2 V c 0 t) (iblk2 V c 1 t) (iblk2 V c 2 t) (ix2 p q)
    = Cert.Spec.layer2 (V c main_v57) (V c main_v58) (V c main_arg5) (((cfg2.win 3).blk t).view.emb (ix2 p q))
  rw [block_entry]
  unfold Cert.Spec.layer2
  refine Finset.sum_congr rfl fun k _ => ?_
  refine congrArg₂ (fun a b : EReal => a * b) (congrArg (fun a : EReal => max a 0)
    (congrArg₂ (fun a b : EReal => a + b) ?_ ?_)) ?_
  · -- the input block's row p is row 5000 t + p of the input array
    show V c main_v57 (((cfg2.win 0).blk t).view.emb (ix2 p k)) = _
    refine congrArg (V c main_v57 : S50000x128.Idx → EReal) (funext fun a => Fin.ext ?_)
    match a with
    | ⟨0, _⟩ =>
      show win2_0.index t (0 : Fin 2) * 5000 + 1 * p.val = win2_3.index t (0 : Fin 2) * 5000 + 1 * p.val
      omega
    | ⟨1, _⟩ =>
      show win2_0.index t (1 : Fin 2) * 128 + 1 * k.val = k.val
      omega
  · -- the bias block is the bias row
    show V c main_v58 (((cfg2.win 1).blk t).view.emb (ix2 (0 : Fin 1) k)) = _
    refine congrArg (V c main_v58 : S1x128.Idx → EReal) (funext fun a => Fin.ext ?_)
    match a with
    | ⟨0, _⟩ =>
      show win2_1.index t (0 : Fin 2) * 1 + 1 * 0 = 0
      omega
    | ⟨1, _⟩ =>
      show win2_1.index t (1 : Fin 2) * 128 + 1 * k.val = k.val
      omega
  · -- the weight block is the weight matrix, and the output block's column q is column q of the output array
    show V c main_arg5 (((cfg2.win 2).blk t).view.emb (ix2 k q)) = _
    refine congrArg (V c main_arg5 : S128x128.Idx → EReal) (funext fun a => Fin.ext ?_)
    match a with
    | ⟨0, _⟩ =>
      show win2_2.index t (0 : Fin 2) * 128 + 1 * k.val = k.val
      omega
    | ⟨1, _⟩ =>
      show win2_2.index t (1 : Fin 2) * 128 + 1 * q.val = win2_3.index t (1 : Fin 2) * 128 + 1 * q.val
      omega

/-! ## The ten blocks fill the array -/

/-- An entry of the output array lies in grid point `t`'s block exactly when, on each axis, its coordinate is within
    the block's extent from the block's first coordinate. -/
theorem mem_block (t : Fin cfg2.N) (i : S50000x128.Idx) :
    i ∈ ((cfg2.win 3).blk t).view.set
      ↔ ∀ a : Fin 2, win2_3.index t a * S5000x128.size a ≤ (i a).val
          ∧ (i a).val < win2_3.index t a * S5000x128.size a + S5000x128.size a := by
  show i ∈ ((View.whole main_v59).slice (win2_3.rect t)).set ↔ _
  rw [View.set_slice_whole, Rect.mem_set_unit]
  exact Iff.rfl

/-- Row r of the output array is written back by grid point r / 5000. -/
theorem covered (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, lt_of_lt_of_eq (by omega : (i 0).val / 5000 < 10) N_2.symm⟩, rfl⟩
  obtain ⟨-, -, -, -, -, -, e6, e7⟩ := block_index t
  refine ⟨t, flush2_3 t, ?_⟩
  rw [mem_block]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-- After the last grid point the output array of the third tiled call is the rectified, biased input times the
    second weight matrix. -/
theorem arr (c : Dev nD) :
    (dat2 (F := Ideal) V c).arrAt 3 cfg2.N = Cert.Spec.layer2 (V c main_v57) (V c main_v58) (V c main_arg5) := by
  exact (dat2 (F := Ideal) V c).arrAt_eq_of_cover 3 _ (fun t _ => flushed_eq V c t) covered

end Cert.Region2

end
-- ==== Proof.Region3.lean ====
import proofs.«426023_j33397665693793_2_alg».proof.Proof.Gen.KernelIdeal.Frame
import proofs.«426023_j33397665693793_2_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! # The masked column sums, accumulated over the row tiles -/

namespace Cert.Region3

section Pieces
variable {F : FTy → Type} [FloatOps F]

/-- The all-zero offsets of a whole-block access. -/
theorem zero_offsets : (![0, 0] : Fin 2 → Nat) = fun _ => 0 := funext fun a => by fin_cases a <;> rfl

/-- A later tile (not the first): the body leaves in the accumulator, which held `acc`, the payload of its one
    whole-block store over the three input blocks and `acc`. -/
theorem later_tile_leaves (c : Dev nD) (i : grid3.Coords) (a1 : Memref sig .tc .vmem S5000x128 .f32) (h1 : a1.IsWhole)
    (a2 : Memref sig .tc .vmem S1x128 .f32) (h2 : a2.IsWhole) (a3 : Memref sig .tc .vmem S5000x64 .f32) (h3 : a3.IsWhole)
    (a4 : Memref sig .tc .vmem S64x128 .f32) (h4 : a4.IsWhole) (hc : ¬cond3_0 i)
    (x0 : Vec F S5000x128 .f32) (x1 : Vec F S1x128 .f32) (x2 : Vec F S5000x64 .f32) (acc : Vec F S64x128 .f32) :
    out3_B_3 c i a1 h1 a2 h2 a3 h3 a4 h4 hc x0 x1 x2 acc = k3_pay2 x0 x1 x2 acc := by
  unfold out3_B_3
  rw [View.read_writes_eq_canon _ _ _ (cover3_B_3 c i a1 h1 a2 h2 a3 h3 a4 h4 hc x0 x1 x2 acc)]
  unfold kernelRun3_B
  dsimp only
  sl_unfold_words
  rw [View.canon_unit_zero zero_offsets]
  simp only [View.readAt_eq_ld, h1.read_unread, h2.read_unread, h3.read_unread, h4.read_unread,
    View.ld_unit_zero (S := S5000x128) zero_offsets, View.ld_unit_zero (S := S1x128) zero_offsets, View.ld_unit_zero (S := S5000x64) zero_offsets,
    View.ld_unit_zero (S := S64x128) zero_offsets]

/-- The first tile: the body stores the zero block, reads it back, and leaves the payload over the zero block. -/
theorem first_tile_leaves (c : Dev nD) (i : grid3.Coords) (a1 : Memref sig .tc .vmem S5000x128 .f32) (h1 : a1.IsWhole)
    (a2 : Memref sig .tc .vmem S1x128 .f32) (h2 : a2.IsWhole) (a3 : Memref sig .tc .vmem S5000x64 .f32) (h3 : a3.IsWhole)
    (a4 : Memref sig .tc .vmem S64x128 .f32) (h4 : a4.IsWhole) (hc : cond3_0 i)
    (x0 : Vec F S5000x128 .f32) (x1 : Vec F S1x128 .f32) (x2 : Vec F S5000x64 .f32) :
    out3_A_3 c i a1 h1 a2 h2 a3 h3 a4 h4 hc x0 x1 x2 = k3_pay2 x0 x1 x2 (k3_pay1 (F := F)) := by
  unfold out3_A_3
  rw [View.read_writes_eq_canon _ _ _ (cover3_A_3 c i a1 h1 a2 h2 a3 h3 a4 h4 hc x0 x1 x2)]
  unfold kernelRun3_A
  dsimp only
  sl_unfold_words
  rw [View.canon_cons_unit_zero (S := S64x128) zero_offsets, View.readCov_unit_zero (S := S64x128) _ zero_offsets]
  simp only [View.readAt_eq_ld, h1.read_unread, h2.read_unread, h3.read_unread,
    View.ld_unit_zero (S := S5000x128) zero_offsets, View.ld_unit_zero (S := S1x128) zero_offsets, View.ld_unit_zero (S := S5000x64) zero_offsets]

end Pieces

section Payload

/-- The zero block reads zero everywhere. -/
theorem zero_block_apply (g : Fin 64) (h : Fin 128) : k3_pay1 (F := Ideal) (ix2 g h) = 0 := by
  unfold k3_pay1
  exact Ideal.ofBits_zero_f32

/-- The product's left operand (the transposed mask, 64 × 5000) is read at row = the output's row, -/
theorem lhs_axis0 (i : S64x128.Idx) (q : dot_S64x5000_S5000x128_S64x128_1_0_0_1_n_n.contr.Idx) :
    (dot_S64x5000_S5000x128_S64x128_1_0_0_1_n_n.lhsIdx i q 0).val = (i 0).val := by
  unfold DotDims.lhsIdx
  rw [dif_neg (show ¬(0 : Fin S64x5000.rank) ∈ dot_S64x5000_S5000x128_S64x128_1_0_0_1_n_n.lhsBatch by decide), dif_pos (show (0 : Fin S64x5000.rank) ∈ dot_S64x5000_S5000x128_S64x128_1_0_0_1_n_n.lhsNonContracting by decide)]
  rfl
/-- and column = the contracted row of the tile; -/
theorem lhs_axis1 (i : S64x128.Idx) (q : dot_S64x5000_S5000x128_S64x128_1_0_0_1_n_n.contr.Idx) :
    (dot_S64x5000_S5000x128_S64x128_1_0_0_1_n_n.lhsIdx i q 1).val = (q ⟨0, by decide⟩).val :=
  dot_S64x5000_S5000x128_S64x128_1_0_0_1_n_n.lhsIdx_val_of_single rfl i q
/-- the right operand (the rectified tile, 5000 × 128) at row = the contracted row, -/
theorem rhs_axis0 (i : S64x128.Idx) (q : dot_S64x5000_S5000x128_S64x128_1_0_0_1_n_n.contr.Idx) :
    (dot_S64x5000_S5000x128_S64x128_1_0_0_1_n_n.rhsIdx i q 0).val = (q ⟨0, by decide⟩).val :=
  dot_S64x5000_S5000x128_S64x128_1_0_0_1_n_n.rhsIdx_val_of_single rfl i q
/-- and column = the output's column. -/
theorem rhs_axis1 (i : S64x128.Idx) (q : dot_S64x5000_S5000x128_S64x128_1_0_0_1_n_n.contr.Idx) :
    (dot_S64x5000_S5000x128_S64x128_1_0_0_1_n_n.rhsIdx i q 1).val = (i 1).val := by
  unfold DotDims.rhsIdx
  rw [dif_neg (show ¬(1 : Fin S5000x128.rank) ∈ dot_S64x5000_S5000x128_S64x128_1_0_0_1_n_n.rhsBatch by decide), dif_pos (show (1 : Fin S5000x128.rank) ∈ dot_S64x5000_S5000x128_S64x128_1_0_0_1_n_n.rhsNonContracting by decide)]
  rfl

/-- The payload at entry (g, h): the accumulator's entry plus the tile's sum over its 5000 rows k of
    mask(k, g) times the rectified biased input (k, h). -/
theorem tile_update_apply (x0 : Vec Ideal S5000x128 .f32) (x1 : Vec Ideal S1x128 .f32) (x2 : Vec Ideal S5000x64 .f32)
    (acc : Vec Ideal S64x128 .f32) (g : Fin 64) (h : Fin 128) :
    k3_pay2 (F := Ideal) x0 x1 x2 acc (ix2 g h)
      = acc (ix2 g h) + ∑ k : Fin 5000, x2 (ix2 k g) * max (x0 (ix2 k h) + x1 (ix2 (0 : Fin 1) h)) 0 := by
  unfold k3_pay2
  dsimp only
  refine (addf_apply _ _ (ix2 g h)).trans ?_
  refine congrArg₂ (· + ·) (congrFun (shapeCast_self acc shapeCasts_S64x128_S64x128) (ix2 g h)) ?_
  refine (Ideal.matmul_constant_zero_apply dot_S64x5000_S5000x128_S64x128_1_0_0_1_n_n (some .fp32) _ _ (ix2 g h)).trans ?_
  rw [← Equiv.sum_comp (contrEquiv1 dot_S64x5000_S5000x128_S64x128_1_0_0_1_n_n 5000 rfl rfl).symm]
  refine Finset.sum_congr rfl fun k _ => ?_
  have hk := contrEquiv1_symm_val dot_S64x5000_S5000x128_S64x128_1_0_0_1_n_n 5000 rfl rfl k
  have el : dot_S64x5000_S5000x128_S64x128_1_0_0_1_n_n.lhsIdx (ix2 g h) ((contrEquiv1 dot_S64x5000_S5000x128_S64x128_1_0_0_1_n_n 5000 rfl rfl).symm k) = ix2 g k := funext fun a => Fin.ext (by
    match a with
    | ⟨0, _⟩ => exact lhs_axis0 _ _
    | ⟨1, _⟩ => exact (lhs_axis1 _ _).trans hk)
  have er : dot_S64x5000_S5000x128_S64x128_1_0_0_1_n_n.rhsIdx (ix2 g h) ((contrEquiv1 dot_S64x5000_S5000x128_S64x128_1_0_0_1_n_n 5000 rfl rfl).symm k) = ix2 k h := funext fun a => Fin.ext (by
    match a with
    | ⟨0, _⟩ => exact (rhs_axis0 _ _).trans hk
    | ⟨1, _⟩ => exact rhs_axis1 _ _)
  rw [el, er]
  refine congrArg₂ (· * ·) ?_ ?_
  · refine (transpose_apply [1, 0] _ transposes_S5000x64_p1_0_S64x5000 (ix2 g k) (ix2 k g) ?_).trans
      (congrFun (shapeCast_self x2 shapeCasts_S5000x64_S5000x64) (ix2 k g))
    intro b
    match b with
    | ⟨0, _⟩ => rfl
    | ⟨1, _⟩ => rfl
  · refine (maximumf_apply _ _ (ix2 k h)).trans ?_
    refine congrArg₂ max ?_ Ideal.ofBits_zero_f32
    refine (addf_apply _ _ (ix2 k h)).trans ?_
    refine congrArg₂ (· + ·) (congrFun (shapeCast_self x0 shapeCasts_S5000x128_S5000x128) (ix2 k h)) ?_
    refine (broadcastTo_apply _ broadcasts_S1x128_S5000x128 (ix2 k h) (ix2 (0 : Fin 1) h) ?_).trans
      (congrFun (shapeCast_self x1 shapeCasts_S1x128_S1x128) (ix2 (0 : Fin 1) h))
    intro a
    match a with
    | ⟨0, _⟩ => rfl
    | ⟨1, _⟩ => rfl

end Payload

section Fold

variable (V : (c : Dev nD) → (b : Ref sig .tc) → Buf (Elt Ideal) ((c : Thread nD τ).loc b))

/-! ## The arrays, and the tiles the windows cut from them -/

/-- The input rows (50000 × 128), the bias row (1 × 128) and the mask (50000 × 64), as the call finds them. -/
abbrev xarr (c : Dev nD) : Cert.Spec.Mat 50000 128 := V c main_v72
abbrev barr (c : Dev nD) : Cert.Spec.Mat 1 128 := V c main_v80
abbrev marr (c : Dev nD) : Cert.Spec.Mat 50000 64 := V c main_v79

/-- Tile `t` of the input rows, the bias row, and tile `t` of the mask. -/
abbrev xblk (c : Dev nD) (t : Fin cfg3.N) : Vec Ideal S5000x128 .f32 := iblk3 V c 0 t
abbrev bblk (c : Dev nD) (t : Fin cfg3.N) : Vec Ideal S1x128 .f32 := iblk3 V c 1 t
abbrev mblk (c : Dev nD) (t : Fin cfg3.N) : Vec Ideal S5000x64 .f32 := iblk3 V c 2 t

/-- The index maps over the grid: the two row-tiled windows are at block (t, 0); the bias row and the
    accumulator stay at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0 :=
  (by decide +kernel : ∀ t : Fin grid3.N, _)

/-- Row k of input tile t is row 5000·t + k of the array. -/
theorem xblk_apply (c : Dev nD) (t : Fin cfg3.N) (k : Fin 5000) (h : Fin 128) (r : Fin 50000)
    (hr : r.val = 5000 * t.val + k.val) : xblk V c t (ix2 k h) = xarr V c (ix2 r h) := by
  obtain ⟨e0, e1, -⟩ := idx_facts t
  show V c main_v72 (((cfg3.win 0).blk t).view.emb (ix2 k h)) = V c main_v72 (ix2 r h)
  refine congrArg (V c main_v72) (funext fun a => Fin.ext ?_)
  match a with
  | ⟨0, _⟩ => show win3_0.index t (0 : Fin 2) * 5000 + 1 * k.val = r.val; omega
  | ⟨1, _⟩ => show win3_0.index t (1 : Fin 2) * 128 + 1 * h.val = h.val; omega

/-- The bias tile is the bias row. -/
theorem bblk_apply (c : Dev nD) (t : Fin cfg3.N) (h : Fin 128) :
    bblk V c t (ix2 (0 : Fin 1) h) = barr V c (ix2 (0 : Fin 1) h) := by
  obtain ⟨-, -, e0, e1, -⟩ := idx_facts t
  show V c main_v80 (((cfg3.win 1).blk t).view.emb (ix2 (0 : Fin 1) h)) = V c main_v80 (ix2 (0 : Fin 1) h)
  refine congrArg (V c main_v80) (funext fun a => Fin.ext ?_)
  match a with
  | ⟨0, _⟩ => show win3_1.index t (0 : Fin 2) * 1 + 1 * 0 = 0; omega
  | ⟨1, _⟩ => show win3_1.index t (1 : Fin 2) * 128 + 1 * h.val = h.val; omega

/-- Row k of mask tile t is row 5000·t + k of the mask. -/
theorem mblk_apply (c : Dev nD) (t : Fin cfg3.N) (k : Fin 5000) (g : Fin 64) (r : Fin 50000)
    (hr : r.val = 5000 * t.val + k.val) : mblk V c t (ix2 k g) = marr V c (ix2 r g) := by
  obtain ⟨-, -, -, -, e0, e1, -⟩ := idx_facts t
  show V c main_v79 (((cfg3.win 2).blk t).view.emb (ix2 k g)) = V c main_v79 (ix2 r g)
  refine congrArg (V c main_v79) (funext fun a => Fin.ext ?_)
  match a with
  | ⟨0, _⟩ => show win3_2.index t (0 : Fin 2) * 5000 + 1 * k.val = r.val; omega
  | ⟨1, _⟩ => show win3_2.index t (1 : Fin 2) * 64 + 1 * g.val = g.val; omega

/-! ## The running sum -/

/-- Row r's contribution to entry (g, h): mask(r, g) times the rectified biased input (r, h); nothing past the
    last row. -/
def rowTerm (c : Dev nD) (g : Fin 64) (h : Fin 128) (r : ℕ) : EReal :=
  if hr : r < 50000 then marr V c (ix2 ⟨r, hr⟩ g) * max (xarr V c (ix2 ⟨r, hr⟩ h) + barr V c (ix2 (0 : Fin 1) h)) 0 else 0

/-- What tile t adds to entry (g, h) is the contributions of rows 5000·t … 5000·t + 4999. -/
theorem tile_sum (c : Dev nD) (t : Fin cfg3.N) (g : Fin 64) (h : Fin 128) :
    ∑ k : Fin 5000, mblk V c t (ix2 k g) * max (xblk V c t (ix2 k h) + bblk V c t (ix2 (0 : Fin 1) h)) 0
      = ∑ k ∈ Finset.range 5000, rowTerm V c g h (5000 * t.val + k) := by
  have hN : t.val < 10 := lt_of_lt_of_eq t.isLt (show cfg3.N = 10 from N_3)
  rw [Finset.sum_range]
  refine Finset.sum_congr rfl fun k _ => ?_
  have hr : 5000 * t.val + k.val < 50000 := by have := k.isLt; omega
  unfold rowTerm
  rw [dif_pos hr, mblk_apply V c t k g ⟨5000 * t.val + k.val, hr⟩ rfl, xblk_apply V c t k h ⟨5000 * t.val + k.val, hr⟩ rfl,
    bblk_apply V c t h]

/-- After tile n the accumulator's entry (g, h) is the sum of the contributions of rows 0 … 5000·(n+1) − 1:
    the first tile starts from zero, each later one adds its rows to what the tile before left. -/
theorem acc_eq (c : Dev nD) (g : Fin 64) (h : Fin 128) : ∀ (n : ℕ) (hn : n < cfg3.N),
    outsAt3 V c n hn (ix2 g h) = ∑ r ∈ Finset.range (5000 * (n + 1)), rowTerm V c g h r
  | 0, hn => by
    refine (congrFun (outsAt3_A V c ⟨0, hn⟩ rfl) (ix2 g h)).trans ?_
    refine (congrFun (first_tile_leaves (F := Ideal) c (grid3.coords ⟨0, hn⟩) (ms3_0 ⟨0, hn⟩) (hs3_0 ⟨0, hn⟩) (ms3_1 ⟨0, hn⟩) (hs3_1 ⟨0, hn⟩)
      (ms3_2 ⟨0, hn⟩) (hs3_2 ⟨0, hn⟩) (ms3_3 ⟨0, hn⟩) (hs3_3 ⟨0, hn⟩) ((hcond3_0 ⟨0, hn⟩).mpr rfl)
      (xblk V c ⟨0, hn⟩) (bblk V c ⟨0, hn⟩) (mblk V c ⟨0, hn⟩)) (ix2 g h)).trans ?_
    rw [tile_update_apply, zero_block_apply, zero_add, tile_sum V c ⟨0, hn⟩ g h]
    refine Finset.sum_congr rfl fun k _ => ?_
    show rowTerm V c g h (5000 * 0 + k) = _
    rw [Nat.mul_zero, Nat.zero_add]
  | n + 1, hn => by
    have hN : cfg3.N = 10 := N_3
    have hB : ¬(⟨n + 1, hn⟩ : Fin cfg3.N).val % 10 = 0 := by dsimp only; omega
    refine (congrFun (outsAt3_B V c ⟨n + 1, hn⟩ hB) (ix2 g h)).trans ?_
    refine (congrFun (later_tile_leaves (F := Ideal) c (grid3.coords ⟨n + 1, hn⟩) (ms3_0 ⟨n + 1, hn⟩) (hs3_0 ⟨n + 1, hn⟩) (ms3_1 ⟨n + 1, hn⟩) (hs3_1 ⟨n + 1, hn⟩)
      (ms3_2 ⟨n + 1, hn⟩) (hs3_2 ⟨n + 1, hn⟩) (ms3_3 ⟨n + 1, hn⟩) (hs3_3 ⟨n + 1, hn⟩) (fun hh => hB ((hcond3_0 ⟨n + 1, hn⟩).mp hh))
      (xblk V c ⟨n + 1, hn⟩) (bblk V c ⟨n + 1, hn⟩) (mblk V c ⟨n + 1, hn⟩)
      (outsAt3 V c n (Nat.lt_of_succ_lt hn))) (ix2 g h)).trans ?_
    rw [tile_update_apply, tile_sum V c ⟨n + 1, hn⟩ g h, acc_eq c g h n (Nat.lt_of_succ_lt hn),
      show 5000 * (n + 1 + 1) = 5000 * (n + 1) + 5000 from by omega, Finset.sum_range_add]

/-- All the rows: the sum of every row's contribution is the pooled entry. -/
theorem sum_all (c : Dev nD) (i : S64x128.Idx) :
    ∑ r ∈ Finset.range 50000, rowTerm V c ⟨(i 0).val, (i 0).isLt⟩ ⟨(i 1).val, (i 1).isLt⟩ r
      = Cert.Spec.pool (V c main_v72) (V c main_v80) (V c main_v79) i := by
  rw [Finset.sum_range]
  unfold Cert.Spec.pool
  refine Finset.sum_congr rfl fun n _ => ?_
  unfold rowTerm
  rw [dif_pos n.isLt]

/-- After the last tile the accumulator is the pooled array. -/
theorem last_eq (c : Dev nD) (hn : 9 < cfg3.N) :
    outsAt3 V c 9 hn = Cert.Spec.pool (V c main_v72) (V c main_v80) (V c main_v79) := by
  funext i
  rw [eq_ix2 i]
  refine (acc_eq V c (i 0) (i 1) 9 hn).trans ?_
  exact sum_all V c (ix2 (i 0) (i 1))

/-- The one write-back, after the last tile, writes the pooled array: the accumulator's block is the whole array. -/
theorem flushed_eq (c : Dev nD) (t : Fin cfg3.N) (hf : (cfg3.win 3).flush t = true) :
    (dat3 (F := Ideal) V c).flushed 3 t
      = ((cfg3.win 3).blk t).view.read (Elt Ideal) (Cert.Spec.pool (V c main_v72) (V c main_v80) (V c main_v79)) := by
  have hN : cfg3.N = 10 := N_3
  have h9 : t.val = 9 := by have := (flush3_3 t).mp hf; have := t.isLt; omega
  obtain rfl : t = t3_9 := Fin.ext h9
  show (cfg3.win 3).cut (grid3.coords t3_9) ((dat3 (F := Ideal) V c).after 3 t3_9) = _
  rw [after3_3]
  have e : outsAt3 V c t3_9.val t3_9.isLt = Cert.Spec.pool (V c main_v72) (V c main_v80) (V c main_v79) :=
    last_eq V c t3_9.isLt
  rw [e]
  have zero_offsets' : (fun a => win3_3.index t3_9 a * main_v81.ty.shape.size a) = fun _ => 0 := funext fun a => by fin_cases a <;> decide
  exact (Memref.read_access_unit_zero (Elt Ideal) main_v81 zero_offsets' (fun a => by rw [congrFun zero_offsets' a]; simp)
    (Cert.Spec.pool (V c main_v72) (V c main_v80) (V c main_v79))).symm

/-- Every entry of the 64 × 128 array lies in that block. -/
theorem cover (i : S64x128.Idx) : i ∈ ((cfg3.win 3).blk t3_9).view.set := by
  show i ∈ ((View.whole main_v81).slice (win3_3.rect t3_9)).set
  rw [View.set_slice_whole, Rect.mem_set_unit]
  intro a
  have h0 : (i 0 : Nat) < 64 := (i 0).isLt
  have h1 : (i 1 : Nat) < 128 := (i 1).isLt
  match a with
  | ⟨0, _⟩ =>
    show win3_3.index t3_9 0 * win3_3.size 0 ≤ (i 0 : Nat) ∧ (i 0 : Nat) < win3_3.index t3_9 0 * win3_3.size 0 + win3_3.xsize (grid3.coords t3_9) 0
    rw [show win3_3.index t3_9 0 * win3_3.size 0 = 0 from by decide +kernel, show win3_3.xsize (grid3.coords t3_9) 0 = 64 from by decide +kernel]; omega
  | ⟨1, _⟩ =>
    show win3_3.index t3_9 1 * win3_3.size 1 ≤ (i 1 : Nat) ∧ (i 1 : Nat) < win3_3.index t3_9 1 * win3_3.size 1 + win3_3.xsize (grid3.coords t3_9) 1
    rw [show win3_3.index t3_9 1 * win3_3.size 1 = 0 from by decide +kernel, show win3_3.xsize (grid3.coords t3_9) 1 = 128 from by decide +kernel]; omega

end Fold

variable (V : (c : Dev nD) → (b : Ref sig .tc) → Buf (Elt Ideal) ((c : Thread nD τ).loc b))

/-- After the last grid point the accumulator array of the fourth tiled call holds, for every mask column and
    feature column, the sum over ALL rows of mask times rectified biased input: the ten tiles' partial sums added
    up from zero. -/
theorem arr (c : Dev nD) :
    (dat3 (F := Ideal) V c).arrAt 3 cfg3.N = Cert.Spec.pool (V c main_v72) (V c main_v80) (V c main_v79) := by
  exact (dat3 (F := Ideal) V c).arrAt_eq_of_cover 3 (Cert.Spec.pool (V c main_v72) (V c main_v80) (V c main_v79))
    (flushed_eq V c) fun i => ⟨t3_9, (flush3_3 t3_9).mpr rfl, cover i⟩

end Cert.Region3

end
-- ==== Proof.KVal.lean ====
import proofs.«426023_j33397665693793_2_alg».proof.Proof.Gen.KernelIdeal.Frame
import proofs.«426023_j33397665693793_2_alg».proof.Proof.Spec
import proofs.«426023_j33397665693793_2_alg».proof.Proof.Vocab
import proofs.«426023_j33397665693793_2_alg».proof.Proof.KTerms
import proofs.«426023_j33397665693793_2_alg».proof.Proof.Region0
import proofs.«426023_j33397665693793_2_alg».proof.Proof.Region1
import proofs.«426023_j33397665693793_2_alg».proof.Proof.Region2
import proofs.«426023_j33397665693793_2_alg».proof.Proof.Region3
import Idealize.ShloMosaic.Lib.StableHlo.Run

/-!
# What the tiled program leaves in its result buffer

The contents of the buffers at each boundary between host stretches and tiled calls are followed from the
launch to the return: a host stretch applies its operations, a tiled call replaces its output array by the
whole-array function of its operand arrays, and every other buffer keeps what it held. The result is the
pooling tail applied to the masked sums of the second layer, all as functions of the twelve argument arrays.
-/

set_option maxRecDepth 16384

noncomputable section

namespace Cert.KernelVal

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## A buffer that is not one of a tiled call's arrays keeps its contents across the call -/

theorem keep3 (b : Ref sig .tc) (hb : ∀ w, Pipeline.arrRef spec0 w ≠ b) :
    W3 m ρ c (no_index (Proc.devRef .tc b)) = W2 m ρ c (Proc.devRef .tc b) := W3_of_ne m ρ c b hb
theorem keep5 (b : Ref sig .tc) (hb : ∀ w, Pipeline.arrRef spec1 w ≠ b) :
    W5 m ρ c (no_index (Proc.devRef .tc b)) = W4 m ρ c (Proc.devRef .tc b) := W5_of_ne m ρ c b hb
theorem keep9 (b : Ref sig .tc) (hb : ∀ w, Pipeline.arrRef spec2 w ≠ b) :
    W9 m ρ c (no_index (Proc.devRef .tc b)) = W8 m ρ c (Proc.devRef .tc b) := W9_of_ne m ρ c b hb
theorem keep11 (b : Ref sig .tc) (hb : ∀ w, Pipeline.arrRef spec3 w ≠ b) :
    W11 m ρ c (no_index (Proc.devRef .tc b)) = W10 m ρ c (Proc.devRef .tc b) := W11_of_ne m ρ c b hb

/-- An array over the 500000 edges joined with an array over the 50000 nodes (the self loops). Named so that its two
    operands are plain arguments of one function. -/
def cat2 {α : Type} (x : S500000.Idx → α) (y : S50000.Idx → α) : S550000.Idx → α :=
  concatenate S550000 0 [⟨S500000, x⟩, ⟨S50000, y⟩] Cert.KernelIdeal.Facts₀.concatenates_S500000_S50000_S550000_d0

theorem cat2_def {α : Type} (x : S500000.Idx → α) (y : S50000.Idx → α) :
    concatenate S550000 0 [⟨S500000, x⟩, ⟨S50000, y⟩] Cert.KernelIdeal.Facts₀.concatenates_S500000_S50000_S550000_d0 = cat2 x y := rfl

/-- Follows a buffer's contents back through host stretches (each operation's result at its own buffer, any other
    buffer untouched) and across tiled calls that do not write it; a transport along an equation between equal
    buffer types is dropped, and a join of two arrays is named so that its operands are followed too. -/
macro "follow" : tactic =>
  `(tactic| (simp (disch := decide) only [W12, W10, W8, W7, W6, W4, W2, W1, V2, V4, V8, V10, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      keep3, keep5, keep9, keep11, cat2_def, cast_eq]))

/-! ## The first tiled call: the padded table times the embedding rows of the weights -/

theorem at2_v2 : V2 m ρ c main_v2 = Cert.KTerms.padded (F := Ideal) (m ((c.tc : Thread nD τ).loc main_arg2)) := by
  follow
  rfl

theorem at2_v1 : V2 m ρ c main_v1 = Cert.KTerms.wEmb (F := Ideal) (m ((c.tc : Thread nD τ).loc main_arg3)) := by
  follow
  rfl

/-! ## The values at each stage, as functions of the argument arrays -/

/-- The projected padded table. -/
abbrev table : Cert.Spec.Mat 55296 128 :=
  Cert.Spec.proj0 (Cert.KTerms.padded (F := Ideal) (m ((c.tc : Thread nD τ).loc main_arg2))) (Cert.KTerms.wEmb (F := Ideal) (m ((c.tc : Thread nD τ).loc main_arg3)))
/-- The first layer's input rows: features times their weights plus the gathered projected embedding. -/
abbrev h0 : Cert.Spec.Mat 50000 128 :=
  Cert.Spec.proj1 (m ((c.tc : Thread nD τ).loc main_arg0)) (Cert.KTerms.wFeat (F := Ideal) (m ((c.tc : Thread nD τ).loc main_arg3)))
    (Cert.KTerms.gatherRows (F := Ideal) (Cert.KTerms.rows (F := Ideal) (table m c)) (Cert.Vocab.nodeIdx (F := Ideal) (m ((c.tc : Thread nD τ).loc main_arg11))))
/-- After the first round of message passing. -/
abbrev c1 : Cert.Spec.Mat 50000 128 := Cert.Vocab.msg (F := Ideal) (m ((c.tc : Thread nD τ).loc main_arg1)) (m ((c.tc : Thread nD τ).loc main_arg9)) (h0 m c)
/-- The second layer's dense product of the rectified rows. -/
abbrev h1 : Cert.Spec.Mat 50000 128 := Cert.Spec.layer2 (c1 m c) (Cert.KTerms.biasRow (F := Ideal) (m ((c.tc : Thread nD τ).loc main_arg4))) (m ((c.tc : Thread nD τ).loc main_arg5))
/-- After the second round of message passing. -/
abbrev c2 : Cert.Spec.Mat 50000 128 := Cert.Vocab.msg (F := Ideal) (m ((c.tc : Thread nD τ).loc main_arg1)) (m ((c.tc : Thread nD τ).loc main_arg9)) (h1 m c)
/-- The per-graph sums of the rectified second-layer rows. -/
abbrev sums : Cert.Spec.Mat 64 128 :=
  Cert.Spec.pool (c2 m c) (Cert.KTerms.biasRow (F := Ideal) (m ((c.tc : Thread nD τ).loc main_arg6))) (Cert.KTerms.graphMask (F := Ideal) (m ((c.tc : Thread nD τ).loc main_arg10)))

/-- After the first tiled call its output array is the projected padded table. -/
theorem at3_v3 : W3 m ρ c (Proc.devRef .tc main_v3) = table m c :=
  (W3_arr m ρ c 2).trans ((Cert.Region0.arr (V2 m ρ) c).trans (by rw [at2_v2, at2_v1]))

/-! ## The second tiled call: features times their weights, plus the gathered rows -/

theorem at4_arg0 : V4 m ρ c main_arg0 = (m ((c.tc : Thread nD τ).loc main_arg0)) := by
  follow

theorem at4_v0 : V4 m ρ c main_v0 = Cert.KTerms.wFeat (F := Ideal) (m ((c.tc : Thread nD τ).loc main_arg3)) := by
  follow
  rfl

theorem at4_v11 : V4 m ρ c main_v11
    = Cert.KTerms.gatherRows (F := Ideal) (Cert.KTerms.rows (F := Ideal) (table m c)) (Cert.Vocab.nodeIdx (F := Ideal) (m ((c.tc : Thread nD τ).loc main_arg11))) := by
  follow
  rw [at3_v3]
  rfl

theorem at5_v12 : W5 m ρ c (Proc.devRef .tc main_v12) = h0 m c :=
  (W5_arr m ρ c 3).trans ((Cert.Region1.arr (V4 m ρ) c).trans (by rw [at4_arg0, at4_v0, at4_v11]))

/-! ## The third tiled call: bias, rectifier, second weights, after the first round of message passing -/

theorem at8_v57 : V8 m ρ c main_v57 = c1 m c := by
  follow
  rw [at5_v12]
  rfl

theorem at8_v58 : V8 m ρ c main_v58 = Cert.KTerms.biasRow (F := Ideal) (m ((c.tc : Thread nD τ).loc main_arg4)) := by
  follow
  rfl

theorem at8_arg5 : V8 m ρ c main_arg5 = (m ((c.tc : Thread nD τ).loc main_arg5)) := by
  follow

theorem at9_v59 : W9 m ρ c (Proc.devRef .tc main_v59) = h1 m c :=
  (W9_arr m ρ c 3).trans ((Cert.Region2.arr (V8 m ρ) c).trans (by rw [at8_v57, at8_v58, at8_arg5]))

/-! ## The fourth tiled call: the masked sums, after the second round of message passing -/

theorem at10_v72 : V10 m ρ c main_v72 = c2 m c := by
  follow
  rw [at9_v59]
  rfl

theorem at10_v80 : V10 m ρ c main_v80 = Cert.KTerms.biasRow (F := Ideal) (m ((c.tc : Thread nD τ).loc main_arg6)) := by
  follow
  rfl

theorem at10_v79 : V10 m ρ c main_v79 = Cert.KTerms.graphMask (F := Ideal) (m ((c.tc : Thread nD τ).loc main_arg10)) := by
  follow
  rfl

theorem at11_v81 : W11 m ρ c (Proc.devRef .tc main_v81) = sums m c :=
  (W11_arr m ρ c 3).trans ((Cert.Region3.arr (V10 m ρ) c).trans (by rw [at10_v72, at10_v80, at10_v79]))

/-! ## The result -/

/-- The result buffer at the return: the pooling tail of the masked sums. -/
theorem result : W12 m ρ c (Proc.devRef .tc main_v94)
    = Cert.Vocab.tail (F := Ideal) (sums m c) (m ((c.tc : Thread nD τ).loc main_arg10)) (m ((c.tc : Thread nD τ).loc main_arg7)) (m ((c.tc : Thread nD τ).loc main_arg8)) := by
  follow
  rw [at11_v81]
  rfl

end Cert.KernelVal

end
-- ==== Proof.BridgeProj.lean ====
import proofs.«426023_j33397665693793_2_alg».proof.Proof.Spec
import proofs.«426023_j33397665693793_2_alg».proof.Proof.Vocab
import proofs.«426023_j33397665693793_2_alg».proof.Proof.KTerms
import Idealize.ShloMosaic.Lib.ValueIdx
import Idealize.ShloMosaic.Lib.Pipeline.Value
import Idealize.ShloMosaic.PureOps.Ideal.Laws
import Idealize.ShloMosaic.Lib.KernelVsHost

noncomputable section

open Idealize.ShloMosaic Idealize.ShloMosaic.TcCoe Idealize.ShloMosaic.ValueIdx Idealize.SL.Sem
open scoped BigOperators

/-! # The first projection, split: features times their rows of the weights, plus the gathered projected embedding

A row of the concatenation [features | embedding row] times the weight matrix is the sum over the 1152 columns;
it splits at column 128 into the features' part and the embedding's part, and the embedding's part is the
gathered row of (table × embedding rows of the weights): gathering a row commutes with multiplying every row.
Only commutativity and associativity of the sum are used. -/

namespace Cert.BridgeProj

/-! ## Taking a row of a table by a column of start indices -/

section RowTake
variable {α : Type}

/-- A list equal to a one-element list holds that element at every position it has. -/
theorem getElem_of_eq_singleton {β : Type} (l : List β) (b : β) (hl : l = [b]) (k : Nat) (h : k < l.length) :
    l[k] = b := by
  subst hl
  have hk : k = 0 := by simpa using h
  subst hk
  rfl

/-- The row of an N-row table that position p of a column of start indices names: the start index read as a
    signed integer and clamped into [0, N − 1]. -/
def rowAt {n w : Nat} (N : Nat) (idx : IVec ⟨2, ![n, 1]⟩ w) (p : Fin n) : Nat :=
  min (idx (ix2 p (0 : Fin 1))).toInt.toNat (N - 1)

theorem rowAt_lt {n w N : Nat} (hN : 0 < N) (idx : IVec ⟨2, ![n, 1]⟩ w) (p : Fin n) : rowAt N idx p < N := by
  unfold rowAt; omega

/-- A gather whose one collapsed, start-indexed operand axis is the rows, whose offset axis is the columns at
    full width, and whose start indices are a column: entry (p, c) of the result is entry (row named by p, c)
    of the table. -/
theorem gather_rowTake {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (c : Fin C) :
    Host.gather d x idx (ix2 p c) = x (ix2 ⟨rowAt N idx p, rowAt_lt hN idx p⟩ c) := by
  unfold Host.gather
  congr 1
  funext a
  apply Fin.ext
  have hb : ∀ a, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix2 p c) idx (0 : Fin 2)).val = rowAt N idx p
    simp only [GatherDims.operandIdx, GatherDims.batchCoord_eq_zero _ _ _ (hb _), GatherDims.offCoord_eq_zero _ _ _ hk,
      Nat.add_zero, GatherDims.start, dif_pos hm]
    -- the result's one batch axis is axis 0: it reads the start indices' axis 0
    have hbd : d.batchDims = [0] := by
      show (⟨2, ![n, C]⟩ : Shape).kept d.offsetDims = [0]
      rw [hoff]; rfl
    have hsi : ∀ h, d.siIdx (ix2 p c) ⟨List.idxOf (0 : Fin 2) d.startIndexMap, h⟩ = ix2 p (0 : Fin 1) := by
      intro h
      funext b
      apply Fin.ext
      match b with
      | ⟨0, _⟩ =>
        show (d.siIdx (ix2 p c) _ (0 : Fin 2)).val = p.val
        unfold GatherDims.siIdx
        rw [dif_neg (by rw [hivd]; simp)]
        unfold GatherDims.siCoord
        simp only [Fin.val_cast]
        rw [getElem_of_eq_singleton d.batchDims 0 hbd]
        rfl
      | ⟨1, _⟩ =>
        show (d.siIdx (ix2 p c) _ (1 : Fin 2)).val = 0
        unfold GatherDims.siIdx
        rw [dif_pos (by rw [hivd]; rfl)]
        show List.idxOf (0 : Fin 2) d.startIndexMap = 0
        rw [hsim]; simp
    show min (idx _).toInt.toNat (N - d.sliceSizes 0) = min (idx (ix2 p (0 : Fin 1))).toInt.toNat (N - 1)
    rw [hsi, hsl]
  | ⟨1, _⟩ =>
    have hm : (1 : Fin 2) ∉ d.startIndexMap := by rw [hsim]; simp
    have hk : (1 : Fin 2) ∈ d.sKept := by rw [GatherDims.mem_sKept, hcoll, hob]; simp
    show (d.operandIdx (ix2 p c) idx (1 : Fin 2)).val = c.val
    simp only [GatherDims.operandIdx, GatherDims.batchCoord_eq_zero _ _ _ (hb _), Nat.add_zero, GatherDims.start, dif_neg hm,
      Nat.zero_add, GatherDims.offCoord, dif_pos hk]
    rw [getElem_of_eq_singleton d.offsetDims 1 hoff]
    rfl

end RowTake

/-! ## Layout operations of matrices read at an entry -/

section Reads
variable {α : Type}

/-- A block of whole rows cut out of a matrix, starting at row r0: its entry (j₀, j₁) is the matrix's entry
    (r0 + j₀, j₁). -/
theorem slice_rows_apply {R R' C : Nat} (r0 : Nat) (x : (⟨2, ![R, C]⟩ : Shape).Idx → α)
    (h : (⟨2, ![R, C]⟩ : Shape).Slices ![r0, 0] ⟨2, ![R', C]⟩) (j : (⟨2, ![R', C]⟩ : Shape).Idx) (r : Fin R) (c : Fin C)
    (h0 : r.val = r0 + (j 0).val) (h1 : c.val = (j 1).val) :
    extractStridedSlice ⟨2, ![R', C]⟩ ![r0, 0] x h j = x (ix2 r c) :=
  extractStridedSlice_apply _ x h j _ fun a => match a with
    | ⟨0, _⟩ => h0
    | ⟨1, _⟩ => by show c.val = 0 + (j 1).val; omega

/-- A matrix with rows of padding appended below: at a row of the original matrix it is the original entry. -/
theorem pad_rows_apply {R R' C hi : Nat} (x : (⟨2, ![R, C]⟩ : Shape).Idx → α) {u : Shape} (v : u.Idx → α)
    (h : (⟨2, ![R, C]⟩ : Shape).Pads ![0, 0] ![hi, 0] ![0, 0] ⟨2, ![R', C]⟩) (hu : 0 < u.numel)
    (j : (⟨2, ![R', C]⟩ : Shape).Idx) (r : Fin R) (c : Fin C) (h0 : (j 0).val = r.val) (h1 : (j 1).val = c.val) :
    pad ⟨2, ![R', C]⟩ ![0, 0] ![hi, 0] ![0, 0] x v h hu j = x (ix2 r c) :=
  pad_apply_of_inside _ _ _ x v h hu j _ fun a => match a with
    | ⟨0, _⟩ => by show (j 0).val = 0 + r.val * (0 + 1); omega
    | ⟨1, _⟩ => by show (j 1).val = 0 + c.val * (0 + 1); omega

/-- Two matrices with the same rows laid side by side: a column of the first block reads the first matrix. -/
theorem concat_cols_left {n A B T : Nat} (x₁ : (⟨2, ![n, A]⟩ : Shape).Idx → α) (x₂ : (⟨2, ![n, B]⟩ : Shape).Idx → α)
    (h : Shape.Concatenates [(⟨2, ![n, A]⟩ : Shape), ⟨2, ![n, B]⟩] ⟨2, ![n, T]⟩ 1)
    (j : (⟨2, ![n, T]⟩ : Shape).Idx) (p : Fin n) (k : Fin A) (h0 : p.val = (j 0).val) (h1 : k.val = (j 1).val) :
    concatenate ⟨2, ![n, T]⟩ 1 [⟨⟨2, ![n, A]⟩, x₁⟩, ⟨⟨2, ![n, B]⟩, x₂⟩] h j = x₁ (ix2 p k) :=
  concatenate_pair_apply_left 1 x₁ x₂ h j rfl _ fun b => match b with
    | ⟨0, _⟩ => h0
    | ⟨1, _⟩ => h1

/-- … and a column past the first block reads the second matrix, the first block's width less. -/
theorem concat_cols_right {n A B T : Nat} (x₁ : (⟨2, ![n, A]⟩ : Shape).Idx → α) (x₂ : (⟨2, ![n, B]⟩ : Shape).Idx → α)
    (h : Shape.Concatenates [(⟨2, ![n, A]⟩ : Shape), ⟨2, ![n, B]⟩] ⟨2, ![n, T]⟩ 1)
    (j : (⟨2, ![n, T]⟩ : Shape).Idx) (p : Fin n) (k : Fin B) (h0 : p.val = (j 0).val) (h1 : k.val + A = (j 1).val) :
    concatenate ⟨2, ![n, T]⟩ 1 [⟨⟨2, ![n, A]⟩, x₁⟩, ⟨⟨2, ![n, B]⟩, x₂⟩] h j = x₂ (ix2 p k) :=
  concatenate_pair_apply_right 1 x₁ x₂ h j rfl rfl _ (fun b hb => match b with
    | ⟨0, _⟩ => h0
    | ⟨1, _⟩ => absurd rfl hb) h1

end Reads

/-! ## The 1152 columns split at column 128 -/

/-- A sum over the 1152 columns is the sum over the first 128 plus the sum over the remaining 1024. -/
theorem sum_split (f : Fin 1152 → EReal) :
    ∑ k : Fin 1152, f k
      = (∑ k : Fin 128, f ⟨k.val, by omega⟩) + ∑ k : Fin 1024, f ⟨128 + k.val, by omega⟩ :=
  Fin.sum_univ_add (M := EReal) (a := 128) (b := 1024) f

/-! ## The two sides at an entry -/

/-- The embedding half at a true row r of the table: row r of (padded table × embedding rows of the weights) is
    the sum over the 1024 embedding columns of the table's row r times rows 128 … 1151 of the weights. -/
theorem emb_apply (x2 : (⟨Cert.ReferenceIdeal.S55049x1024, .f32⟩ : BufTy).Contents (Elt Ideal))
    (x3 : (⟨Cert.ReferenceIdeal.S1152x128, .f32⟩ : BufTy).Contents (Elt Ideal)) (r : Fin 55049) (c : Fin 128) :
    Cert.KTerms.rows (F := Ideal) (Cert.Spec.proj0 (Cert.KTerms.padded (F := Ideal) x2) (Cert.KTerms.wEmb (F := Ideal) x3)) (ix2 r c)
      = ∑ k : Fin 1024, x2 (ix2 r k) * x3 (ix2 (⟨128 + k.val, by omega⟩ : Fin 1152) c) := by
  have hr : r.val < 55296 := by have := r.isLt; omega
  unfold Cert.KTerms.rows
  rw [slice_rows_apply 0 _ _ (ix2 r c) (⟨r.val, hr⟩ : Fin 55296) c (by show r.val = 0 + r.val; omega) rfl]
  show ∑ k : Fin 1024, Cert.KTerms.padded (F := Ideal) x2 (ix2 (⟨r.val, hr⟩ : Fin 55296) k) * Cert.KTerms.wEmb (F := Ideal) x3 (ix2 k c) = _
  refine Finset.sum_congr rfl fun k _ => ?_
  congr 1
  · unfold Cert.KTerms.padded
    exact pad_rows_apply x2 _ _ _ _ r k rfl rfl
  · unfold Cert.KTerms.wEmb
    exact slice_rows_apply 128 x3 _ _ _ c rfl rfl

/-- The tiled program's side at (p, c): the features' 128 products, plus the 1024 products of the table's row
    named by node p with the embedding rows of the weights. -/
theorem kernel_apply (x0 : (⟨Cert.ReferenceIdeal.S50000x128, .f32⟩ : BufTy).Contents (Elt Ideal))
    (x2 : (⟨Cert.ReferenceIdeal.S55049x1024, .f32⟩ : BufTy).Contents (Elt Ideal))
    (x3 : (⟨Cert.ReferenceIdeal.S1152x128, .f32⟩ : BufTy).Contents (Elt Ideal))
    (idx : (⟨Cert.ReferenceIdeal.S50000x1, .i32⟩ : BufTy).Contents (Elt Ideal)) (p : Fin 50000) (c : Fin 128) :
    Cert.Spec.proj1 x0 (Cert.KTerms.wFeat (F := Ideal) x3)
        (Cert.KTerms.gatherRows (F := Ideal) (Cert.KTerms.rows (F := Ideal)
          (Cert.Spec.proj0 (Cert.KTerms.padded (F := Ideal) x2) (Cert.KTerms.wEmb (F := Ideal) x3))) idx) (ix2 p c)
      = (∑ k : Fin 128, x0 (ix2 p k) * x3 (ix2 (⟨k.val, by omega⟩ : Fin 1152) c))
        + ∑ k : Fin 1024, x2 (ix2 (⟨rowAt 55049 idx p, rowAt_lt (by decide) idx p⟩ : Fin 55049) k)
            * x3 (ix2 (⟨128 + k.val, by omega⟩ : Fin 1152) c) := by
  show (∑ k : Fin 128, x0 (ix2 p k) * Cert.KTerms.wFeat (F := Ideal) x3 (ix2 k c))
      + Cert.KTerms.gatherRows (F := Ideal) _ idx (ix2 p c) = _
  congr 1
  · refine Finset.sum_congr rfl fun k _ => ?_
    congr 1
    unfold Cert.KTerms.wFeat
    exact slice_rows_apply 0 x3 _ _ _ c (by show k.val = 0 + k.val; omega) rfl
  · unfold Cert.KTerms.gatherRows
    rw [gather_rowTake _ rfl rfl rfl rfl rfl _ idx (by decide) p c]
    exact emb_apply x2 x3 _ c

/-- The reference's side at (p, c): the 1152-term product of the concatenated row with the weights, split at
    column 128; the first 128 columns are the features, the other 1024 the table's row named by node p. -/
theorem reference_apply (x0 : (⟨Cert.ReferenceIdeal.S50000x128, .f32⟩ : BufTy).Contents (Elt Ideal))
    (x2 : (⟨Cert.ReferenceIdeal.S55049x1024, .f32⟩ : BufTy).Contents (Elt Ideal))
    (x3 : (⟨Cert.ReferenceIdeal.S1152x128, .f32⟩ : BufTy).Contents (Elt Ideal))
    (x11 : (⟨Cert.ReferenceIdeal.S50000, .i32⟩ : BufTy).Contents (Elt Ideal)) (p : Fin 50000) (c : Fin 128) :
    Cert.ReferenceIdeal.Read.val_main_v8 (F := Ideal) x0 x2 x3 x11 (ix2 p c)
      = (∑ k : Fin 128, x0 (ix2 p k) * x3 (ix2 (⟨k.val, by omega⟩ : Fin 1152) c))
        + ∑ k : Fin 1024, x2 (ix2 (⟨rowAt 55049 (Cert.ReferenceIdeal.Read.val_main_v5 (F := Ideal) x11) p,
              rowAt_lt (by decide) (Cert.ReferenceIdeal.Read.val_main_v5 (F := Ideal) x11) p⟩ : Fin 55049) k)
            * x3 (ix2 (⟨128 + k.val, by omega⟩ : Fin 1152) c) := by
  rw [Cert.ReferenceIdeal.Read.val_main_v8_apply]
  refine (sum_split _).trans ?_
  congr 1
  · refine Finset.sum_congr rfl fun k _ => ?_
    congr 1
    · unfold Cert.ReferenceIdeal.Read.val_main_v7
      exact concat_cols_left x0 _ _ _ p k rfl rfl
    · exact congrArg x3 (funext fun a => match a with | ⟨0, _⟩ => rfl | ⟨1, _⟩ => rfl)
  · refine Finset.sum_congr rfl fun k _ => ?_
    congr 1
    · unfold Cert.ReferenceIdeal.Read.val_main_v7
      rw [concat_cols_right x0 _ _ _ p k rfl (by show k.val + 128 = 128 + k.val; omega)]
      unfold Cert.ReferenceIdeal.Read.val_main_v6
      exact gather_rowTake _ rfl rfl rfl rfl rfl x2 _ (by decide) p k
    · exact congrArg x3 (funext fun a => match a with | ⟨0, _⟩ => rfl | ⟨1, _⟩ => rfl)

/-- The tiled program's first-layer input equals the reference's: for every node and output column,
    the features' 128 products plus the gathered projected row's entry is the 1152-term product of the
    concatenated row with the whole weight matrix. -/
theorem proj_eq (x0 : (⟨Cert.ReferenceIdeal.S50000x128, .f32⟩ : BufTy).Contents (Elt Ideal)) (x2 : (⟨Cert.ReferenceIdeal.S55049x1024, .f32⟩ : BufTy).Contents (Elt Ideal)) (x3 : (⟨Cert.ReferenceIdeal.S1152x128, .f32⟩ : BufTy).Contents (Elt Ideal))
    (x11 : (⟨Cert.ReferenceIdeal.S50000, .i32⟩ : BufTy).Contents (Elt Ideal)) :
    Cert.Spec.proj1 x0 (Cert.KTerms.wFeat (F := Ideal) x3)
        (Cert.KTerms.gatherRows (F := Ideal) (Cert.KTerms.rows (F := Ideal)
          (Cert.Spec.proj0 (Cert.KTerms.padded (F := Ideal) x2) (Cert.KTerms.wEmb (F := Ideal) x3))) (Cert.Vocab.nodeIdx (F := Ideal) x11))
      = Cert.ReferenceIdeal.Read.val_main_v8 (F := Ideal) x0 x2 x3 x11 := by
  funext i
  obtain ⟨p, c, rfl⟩ : ∃ p c, i = ix2 p c := ⟨i 0, i 1, eq_ix2 i⟩
  rw [reference_apply]
  unfold Cert.Vocab.nodeIdx
  exact kernel_apply x0 x2 x3 _ p c

end Cert.BridgeProj

end
-- ==== Proof.BridgePool.lean ====
import proofs.«426023_j33397665693793_2_alg».proof.Proof.Spec
import proofs.«426023_j33397665693793_2_alg».proof.Proof.Vocab
import proofs.«426023_j33397665693793_2_alg».proof.Proof.KTerms
import Idealize.ShloMosaic.Lib.ValueIdx
import Idealize.ShloMosaic.Lib.Pipeline.Value
import Idealize.ShloMosaic.PureOps.Ideal.Laws

noncomputable section

open Idealize.ShloMosaic Idealize.ShloMosaic.TcCoe Idealize.ShloMosaic.ValueIdx Idealize.SL.Sem
open scoped BigOperators

/-! # The second dense layer and the pooling, against the reference's operations

The tiled second layer is the reference's product of the rectified biased rows with the second weight matrix,
entry by entry. The masked column sum is the reference's scatter-add by graph identifier: a node contributes
to graph g exactly when its identifier is g, the mask entry being one there and zero elsewhere, and
0 · x = 0, 1 · x = x for every extended real x. -/

namespace Cert.BridgePool

section Entries

open Cert.ReferenceIdeal Cert.ReferenceIdeal.Gen Cert.ReferenceIdeal.Read

/-! ## The reference's stages read at one entry -/

/-- The rectified rows at entry (n, k): the entry plus the bias of column k, cut below at zero. -/
theorem rect_apply (C : (⟨S50000x128, .f32⟩ : BufTy).Contents (Elt Ideal)) (b : (⟨S128, .f32⟩ : BufTy).Contents (Elt Ideal))
    (n : Fin 50000) (k : Fin 128) :
    Cert.Vocab.rect (F := Ideal) C b (ix2 n k) = max (C (ix2 n k) + b (ix1 k)) 0 := by
  unfold Cert.Vocab.rect
  rw [maximumf_apply, addf_apply, val_main_v55_apply, val_main_v54_apply, val_main_call1_v0_apply, val_main_call1_cst_apply]
  have e : idx_main_v54 (idx_main_v55 (ix2 n k)) = ix1 k := funext fun a => by
    match a with
    | ⟨0, _⟩ => rfl
  rw [e]
  show max _ (Ideal.ofBits .f32 0x00000000#32) = _
  rw [Ideal.ofBits_zero_f32]

/-- The bias laid out as one row reads, at (0, k), the bias at k: both have row-major position k. -/
theorem biasRow_apply (b : (⟨S128, .f32⟩ : BufTy).Contents (Elt Ideal)) (k : Fin 128) :
    Cert.KTerms.biasRow (F := Ideal) b (ix2 (0 : Fin 1) k) = b (ix1 k) := by
  unfold Cert.KTerms.biasRow
  refine shapeCast_apply b _ (ix2 (0 : Fin 1) k) (ix1 k) ?_
  rw [Shape.rowMajor_val_two, Shape.rowMajor_val_one]
  show k.val = 0 * 128 + k.val
  omega

/-- The dense product at entry (n, j): the sum over the contracted column k of R(n, k) · W(k, j). The contraction
    has one axis of extent 128, so its index set is Fin 128; the left operand is read at the row of the entry and
    the contracted coordinate, the right one at the contracted coordinate and the column of the entry. -/
theorem dense2_apply (R : (⟨S50000x128, .f32⟩ : BufTy).Contents (Elt Ideal)) (W : (⟨S128x128, .f32⟩ : BufTy).Contents (Elt Ideal))
    (n : Fin 50000) (j : Fin 128) :
    Cert.Vocab.dense2 (F := Ideal) R W (ix2 n j) = ∑ k : Fin 128, R (ix2 n k) * W (ix2 k j) := by
  unfold Cert.Vocab.dense2
  simp only [Host.dotGeneral]
  rw [Ideal.dotGeneral_apply,
    ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have hl : dot_S50000x128_S128x128_S50000x128_1_0_0_1_n_n.lhsIdx (ix2 n j)
      ((ValueIdx.contrEquiv1 dot_S50000x128_S128x128_S50000x128_1_0_0_1_n_n 128 rfl rfl).symm k) = ix2 n k := by
    funext a
    apply Fin.ext
    match a with
    | ⟨0, _⟩ => exact lhs_main_v58_0 _ _
    | ⟨1, _⟩ => exact (lhs_main_v58_1 _ _).trans hk
  have hr : dot_S50000x128_S128x128_S50000x128_1_0_0_1_n_n.rhsIdx (ix2 n j)
      ((ValueIdx.contrEquiv1 dot_S50000x128_S128x128_S50000x128_1_0_0_1_n_n 128 rfl rfl).symm k) = ix2 k j := by
    funext a
    apply Fin.ext
    match a with
    | ⟨0, _⟩ => exact (rhs_main_v58_0 _ _).trans hk
    | ⟨1, _⟩ => exact rhs_main_v58_1 _ _
  rw [hl, hr]

/-! ## The graph mask read at one entry -/

/-- A 32-bit word is the word of a graph number g below 64 exactly when its signed value is g: both say its
    unsigned value is g, the word's sign bit being clear there. -/
theorem word_eq_iff_toInt (w : BitVec 32) (g : Nat) (hg : g < 64) : w = BitVec.ofNat 32 g ↔ w.toInt = (g : Int) := by
  have hw : w.toNat < 4294967296 := w.isLt
  rw [BitVec.toInt_eq_toNat_cond, ← BitVec.toNat_inj, BitVec.toNat_ofNat]
  have e : g % 2 ^ 32 = g := Nat.mod_eq_of_lt (by omega)
  rw [e]
  constructor
  · intro h
    rw [h, if_pos (by omega)]
  · intro h
    split at h <;> omega

/-- The one-bit answer of a word comparison, read unsigned as an extended real: one on equal words, zero otherwise. -/
theorem eqBit_toReal (x y : BitVec 32) :
    (((IntOp.cmpi .eq x y).toNat : ℝ) : EReal) = if x = y then (1 : EReal) else 0 := by
  show (((BitVec.ofBool (x == y)).toNat : ℝ) : EReal) = _
  by_cases h : x = y
  · rw [if_pos h, beq_iff_eq.2 h]
    show (((1 : ℕ) : ℝ) : EReal) = 1
    norm_num
  · rw [if_neg h, beq_eq_false_iff_ne.2 h]
    show (((0 : ℕ) : ℝ) : EReal) = 0
    norm_num

/-- The graph mask at (n, g): one when node n's identifier is the word of g, zero otherwise. The identifiers are laid
    along the rows and the graph numbers 0 … 63 along the columns, compared as words, the one-bit answer read unsigned. -/
theorem graphMask_apply (x10 : (⟨S50000, .i32⟩ : BufTy).Contents (Elt Ideal)) (n : Fin 50000) (g : Fin 64) :
    Cert.KTerms.graphMask (F := Ideal) x10 (ix2 n g) = if x10 (ix1 n) = BitVec.ofNat 32 g.val then (1 : EReal) else 0 := by
  unfold Cert.KTerms.graphMask
  show FloatOps.uitofp .f32 (IntOp.cmpi .eq _ _) = _
  rw [broadcastInDim_apply _ _ _ (ix2 n g) (ix2 n (0 : Fin 1)) (fun a => match a with
      | ⟨0, _⟩ => by show n.val = if (50000 : Nat) = 1 then 0 else n.val; rw [if_neg (by decide)]
      | ⟨1, _⟩ => by show 0 = if (1 : Nat) = 1 then 0 else g.val; rw [if_pos rfl]),
    broadcastInDim_apply _ _ x10 (ix2 n (0 : Fin 1)) (ix1 n) (fun a => match a with
      | ⟨0, _⟩ => by show n.val = if (50000 : Nat) = 1 then 0 else n.val; rw [if_neg (by decide)]),
    broadcastInDim_apply _ _ _ (ix2 n g) (ix2 (0 : Fin 1) g) (fun a => match a with
      | ⟨0, _⟩ => by show 0 = if (1 : Nat) = 1 then 0 else n.val; rw [if_pos rfl]
      | ⟨1, _⟩ => by show g.val = if (64 : Nat) = 1 then 0 else g.val; rw [if_neg (by decide)]),
    broadcastInDim_apply _ _ _ (ix2 (0 : Fin 1) g) (ix1 g) (fun a => match a with
      | ⟨0, _⟩ => by show g.val = if (64 : Nat) = 1 then 0 else g.val; rw [if_neg (by decide)])]
  exact eqBit_toReal (x10 (ix1 n)) (BitVec.ofNat 32 g.val)

/-! ## The scatter's dimension numbers read at this record

Updates have shape 50000 × 128, the operand 64 × 128, the start indices 50000 × 1. The operand's row axis is the
scattered one (inserted, named by the one start component); the operand's column axis is the window axis, fed by
the update's column. So update (n, h') starts at row (identifier of n, read signed), column 0, with window
coordinate (0, h'). -/

/-- The one start component of update j is read at (row of j, 0) of the start indices. -/
theorem seg_siIdx (j : S50000x128.Idx) (c : Fin scatter_S64x128_S50000x1_S50000x128_1_0_0_1.scatterDimsToOperandDims.length) :
    scatter_S64x128_S50000x1_S50000x128_1_0_0_1.siIdx j c = ix2 (j 0) (0 : Fin 1) := by
  funext a
  match a with
  | ⟨0, _⟩ => rfl
  | ⟨1, _⟩ =>
    apply Fin.ext
    have hc : c.val < 1 := c.isLt
    show c.val = 0
    omega

/-- On the row axis the start is the start index of the update's row, read signed. -/
theorem seg_start0 {w : Nat} (j : S50000x128.Idx) (idx : IVec S50000x1 w) :
    scatter_S64x128_S50000x1_S50000x128_1_0_0_1.start j idx 0 = (idx (ix2 (j 0) (0 : Fin 1))).toInt := by
  unfold ScatterDims.start
  rw [dif_pos (show (0 : Fin S64x128.rank) ∈ scatter_S64x128_S50000x1_S50000x128_1_0_0_1.scatterDimsToOperandDims by
    show (0 : Fin 2) ∈ [(0 : Fin 2)]; decide), seg_siIdx]
  rfl

/-- On the column axis no start component applies: the start is zero. -/
theorem seg_start1 {w : Nat} (j : S50000x128.Idx) (idx : IVec S50000x1 w) :
    scatter_S64x128_S50000x1_S50000x128_1_0_0_1.start j idx 1 = 0 := by
  unfold ScatterDims.start
  rw [dif_neg (show ¬ (1 : Fin S64x128.rank) ∈ scatter_S64x128_S50000x1_S50000x128_1_0_0_1.scatterDimsToOperandDims by
    show ¬ (1 : Fin 2) ∈ [(0 : Fin 2)]; decide)]

/-- The row axis is inserted: its window coordinate is zero. -/
theorem seg_window0 (j : S50000x128.Idx) : scatter_S64x128_S50000x1_S50000x128_1_0_0_1.window j 0 = 0 := by
  unfold ScatterDims.window
  rw [dif_neg (show ¬ (0 : Fin S64x128.rank) ∈ scatter_S64x128_S50000x1_S50000x128_1_0_0_1.sKept by decide)]

/-- The column axis is the window axis: its window coordinate is the update's column. -/
theorem seg_window1 (j : S50000x128.Idx) : scatter_S64x128_S50000x1_S50000x128_1_0_0_1.window j 1 = (j 1).val := by
  unfold ScatterDims.window
  rw [dif_pos (show (1 : Fin S64x128.rank) ∈ scatter_S64x128_S50000x1_S50000x128_1_0_0_1.sKept by decide)]
  rfl

/-- Where an update lands: update (n, h') lands on operand entry (g, h) exactly when the start index of row n, read
    signed, is g and h' = h; it lands nowhere when that signed value is outside 0 … 63. -/
theorem seg_resultIdx_iff {w : Nat} (j : S50000x128.Idx) (idx : IVec S50000x1 w) (i : S64x128.Idx) :
    scatter_S64x128_S50000x1_S50000x128_1_0_0_1.resultIdx? j idx = some i
      ↔ (idx (ix2 (j 0) (0 : Fin 1))).toInt = ((i 0).val : Int) ∧ j 1 = i 1 := by
  have hi0 : (i 0).val < 64 := (i 0).isLt
  have hi1 : (i 1).val < 128 := (i 1).isLt
  have hj1 : (j 1).val < 128 := (j 1).isLt
  unfold ScatterDims.resultIdx?
  constructor
  · intro h
    split at h
    · next H =>
      have e := Option.some.inj h
      have e0 : (scatter_S64x128_S50000x1_S50000x128_1_0_0_1.start j idx 0
          + (scatter_S64x128_S50000x1_S50000x128_1_0_0_1.window j 0 : Int)).toNat = (i 0).val :=
        congrArg (fun f => (f 0).val) e
      have e1 : (scatter_S64x128_S50000x1_S50000x128_1_0_0_1.start j idx 1
          + (scatter_S64x128_S50000x1_S50000x128_1_0_0_1.window j 1 : Int)).toNat = (i 1).val :=
        congrArg (fun f => (f 1).val) e
      have H0 := (H 0).1
      rw [seg_start0, seg_window0] at H0 e0
      rw [seg_start1, seg_window1] at e1
      refine ⟨by omega, Fin.ext (by omega)⟩
    · exact absurd h (by simp)
  · rintro ⟨h0, h1⟩
    have H : ∀ a, 0 ≤ scatter_S64x128_S50000x1_S50000x128_1_0_0_1.start j idx a
          + (scatter_S64x128_S50000x1_S50000x128_1_0_0_1.window j a : Int)
        ∧ scatter_S64x128_S50000x1_S50000x128_1_0_0_1.start j idx a
          + (scatter_S64x128_S50000x1_S50000x128_1_0_0_1.window j a : Int) < ((S64x128.size a : Nat) : Int) := by
      intro a
      match a with
      | ⟨0, _⟩ =>
        show 0 ≤ scatter_S64x128_S50000x1_S50000x128_1_0_0_1.start j idx 0
              + (scatter_S64x128_S50000x1_S50000x128_1_0_0_1.window j 0 : Int)
            ∧ scatter_S64x128_S50000x1_S50000x128_1_0_0_1.start j idx 0
              + (scatter_S64x128_S50000x1_S50000x128_1_0_0_1.window j 0 : Int) < ((64 : Nat) : Int)
        rw [seg_start0, seg_window0, h0]
        omega
      | ⟨1, _⟩ =>
        show 0 ≤ scatter_S64x128_S50000x1_S50000x128_1_0_0_1.start j idx 1
              + (scatter_S64x128_S50000x1_S50000x128_1_0_0_1.window j 1 : Int)
            ∧ scatter_S64x128_S50000x1_S50000x128_1_0_0_1.start j idx 1
              + (scatter_S64x128_S50000x1_S50000x128_1_0_0_1.window j 1 : Int) < ((128 : Nat) : Int)
        rw [seg_start1, seg_window1]
        omega
    rw [dif_pos H]
    congr 1
    funext a
    apply Fin.ext
    match a with
    | ⟨0, _⟩ =>
      show (scatter_S64x128_S50000x1_S50000x128_1_0_0_1.start j idx 0
          + (scatter_S64x128_S50000x1_S50000x128_1_0_0_1.window j 0 : Int)).toNat = (i 0).val
      rw [seg_start0, seg_window0, h0]
      omega
    | ⟨1, _⟩ =>
      show (scatter_S64x128_S50000x1_S50000x128_1_0_0_1.start j idx 1
          + (scatter_S64x128_S50000x1_S50000x128_1_0_0_1.window j 1 : Int)).toNat = (i 1).val
      rw [seg_start1, seg_window1, h1]
      omega

/-! ## The two sides of the pooling as one sum over the nodes -/

/-- With the identifiers as the start-index column: the rectified entry (n, h') lands on (g, h) exactly when node n's
    identifier, read signed, is g and h' = h. -/
theorem seg_lands_iff (x10 : (⟨S50000, .i32⟩ : BufTy).Contents (Elt Ideal)) (n : Fin 50000) (h' : Fin 128) (g : Fin 64) (h : Fin 128) :
    scatter_S64x128_S50000x1_S50000x128_1_0_0_1.resultIdx? (ix2 n h') (val_main_v109 (F := Ideal) x10) = some (ix2 g h)
      ↔ (x10 (ix1 n)).toInt = (g.val : Int) ∧ h' = h := by
  rw [seg_resultIdx_iff, val_main_v109_apply]
  have e : idx_main_v109 (ix2 ((ix2 n h' : S50000x128.Idx) 0) (0 : Fin 1)) = ix1 n := funext fun a => by
    match a with
    | ⟨0, _⟩ => rfl
  rw [e]
  exact Iff.rfl

/-- The reference's per-graph sum at (g, h): the scatter-add from zero collects, over all update entries (n, h'),
    those that land on (g, h); split by coordinates, only h' = h survives in each row, leaving one sum over the
    nodes whose identifier, read signed, is g. -/
theorem segSum_apply (R : (⟨S50000x128, .f32⟩ : BufTy).Contents (Elt Ideal)) (x10 : (⟨S50000, .i32⟩ : BufTy).Contents (Elt Ideal))
    (g : Fin 64) (h : Fin 128) :
    Cert.Vocab.segSum (F := Ideal) R x10 (ix2 g h)
      = ∑ n : Fin 50000, if (x10 (ix1 n)).toInt = (g.val : Int) then R (ix2 n h) else 0 := by
  unfold Cert.Vocab.segSum
  show Ideal.hostScatterAdd scatter_S64x128_S50000x1_S50000x128_1_0_0_1 (val_main_v108 (F := Ideal))
    (val_main_v109 (F := Ideal) x10) R (ix2 g h) = _
  unfold Ideal.hostScatterAdd
  rw [val_main_v108_apply, val_main_cst_22_apply]
  show Ideal.ofBits .f32 0x00000000#32 + _ = _
  rw [Ideal.ofBits_zero_f32, zero_add, Finset.sum_filter, sum_idx2]
  refine Finset.sum_congr rfl fun n _ => ?_
  by_cases c : (x10 (ix1 n)).toInt = (g.val : Int)
  · rw [if_pos c]
    have e : ∀ h' : Fin 128, (if scatter_S64x128_S50000x1_S50000x128_1_0_0_1.resultIdx? (ix2 n h') (val_main_v109 (F := Ideal) x10) = some (ix2 g h)
        then R (ix2 n h') else 0) = if h' = h then R (ix2 n h') else 0 := fun h' =>
      if_congr ((seg_lands_iff x10 n h' g h).trans ⟨fun p => p.2, fun p => ⟨c, p⟩⟩) rfl rfl
    rw [Finset.sum_congr rfl fun h' _ => e h', Finset.sum_ite_eq' Finset.univ h, if_pos (Finset.mem_univ h)]
  · rw [if_neg c]
    refine Finset.sum_eq_zero fun h' _ => ?_
    rw [if_neg (fun p => c ((seg_lands_iff x10 n h' g h).1 p).1)]

/-- The masked column sum at (g, h): the mask entry is one or zero and 1 · x = x, 0 · x = 0 on the extended reals,
    so it is the sum of the rectified entries (n, h) over the nodes whose identifier is the word of g. -/
theorem pool_apply (C : (⟨S50000x128, .f32⟩ : BufTy).Contents (Elt Ideal)) (b : (⟨S128, .f32⟩ : BufTy).Contents (Elt Ideal))
    (x10 : (⟨S50000, .i32⟩ : BufTy).Contents (Elt Ideal)) (g : Fin 64) (h : Fin 128) :
    Cert.Spec.pool C (Cert.KTerms.biasRow (F := Ideal) b) (Cert.KTerms.graphMask (F := Ideal) x10) (ix2 g h)
      = ∑ n : Fin 50000, if x10 (ix1 n) = BitVec.ofNat 32 g.val then Cert.Vocab.rect (F := Ideal) C b (ix2 n h) else 0 := by
  show ∑ n : Fin 50000, Cert.KTerms.graphMask (F := Ideal) x10 (ix2 n g)
      * max (C (ix2 n h) + Cert.KTerms.biasRow (F := Ideal) b (ix2 (0 : Fin 1) h)) 0 = _
  refine Finset.sum_congr rfl fun n _ => ?_
  rw [graphMask_apply, biasRow_apply, ← rect_apply]
  by_cases c : x10 (ix1 n) = BitVec.ofNat 32 g.val
  · rw [if_pos c, if_pos c, one_mul]
  · rw [if_neg c, if_neg c, zero_mul]

end Entries

/-- Bias as a row, rectifier, product with the second weights: the reference's dense product of the rectified rows. -/
theorem layer2_eq (C : (⟨Cert.ReferenceIdeal.S50000x128, .f32⟩ : BufTy).Contents (Elt Ideal)) (b : (⟨Cert.ReferenceIdeal.S128, .f32⟩ : BufTy).Contents (Elt Ideal)) (W : (⟨Cert.ReferenceIdeal.S128x128, .f32⟩ : BufTy).Contents (Elt Ideal)) :
    Cert.Spec.layer2 C (Cert.KTerms.biasRow (F := Ideal) b) W = Cert.Vocab.dense2 (F := Ideal) (Cert.Vocab.rect (F := Ideal) C b) W := by
  funext i
  obtain ⟨n, j, rfl⟩ : ∃ n j, i = ix2 n j := ⟨i 0, i 1, eq_ix2 i⟩
  rw [dense2_apply]
  show ∑ k : Fin 128, max (C (ix2 n k) + Cert.KTerms.biasRow (F := Ideal) b (ix2 (0 : Fin 1) k)) 0 * W (ix2 k j) = _
  refine Finset.sum_congr rfl fun k _ => ?_
  rw [rect_apply, biasRow_apply]

/-- The masked sum over all nodes is the per-graph sum of the rectified rows: the reference's scatter-add from zero. -/
theorem pool_eq (C : (⟨Cert.ReferenceIdeal.S50000x128, .f32⟩ : BufTy).Contents (Elt Ideal)) (b : (⟨Cert.ReferenceIdeal.S128, .f32⟩ : BufTy).Contents (Elt Ideal)) (x10 : (⟨Cert.ReferenceIdeal.S50000, .i32⟩ : BufTy).Contents (Elt Ideal)) :
    Cert.Spec.pool C (Cert.KTerms.biasRow (F := Ideal) b) (Cert.KTerms.graphMask (F := Ideal) x10)
      = Cert.Vocab.segSum (F := Ideal) (Cert.Vocab.rect (F := Ideal) C b) x10 := by
  funext i
  obtain ⟨g, h, rfl⟩ : ∃ g h, i = ix2 g h := ⟨i 0, i 1, eq_ix2 i⟩
  rw [pool_apply, segSum_apply]
  exact Finset.sum_congr rfl fun n _ => if_congr (word_eq_iff_toInt (x10 (ix1 n)) g.val g.isLt) rfl rfl

end Cert.BridgePool

end
-- ==== Proof.lean ====
/-
  A two-layer graph convolution with an embedding lookup, mean-pooled per graph and followed by a linear layer,
  against its plain reference, over the extended reals.

  The tiled program differs from the reference in two places only. First, it projects the whole embedding
  table through the embedding rows of the first weight matrix once and gathers 128-wide projected rows,
  where the reference gathers 1024-wide rows, joins them to the node features and multiplies by the whole
  matrix: a row of [features | embedding] times the matrix is the features' 128 products plus the
  embedding's 1024 products, and taking a row of a product is the product of that row (Proof/BridgeProj.lean).
  Second, it sums the rectified second-layer rows per graph by multiplying with a 0/1 mask and adding the
  ten row tiles' partial sums, where the reference scatter-adds by graph identifier: a node counts for graph
  g exactly when its identifier is g, and 0 · x = 0, 1 · x = x for every extended real (Proof/BridgePool.lean).
  Everything else — the degree normalisation, the two rounds of message passing, bias and rectifier, the
  division by the graph sizes and the output layer — is the same function on both sides and is never opened
  (Proof/Vocab.lean). Only commutativity and associativity of the sum are used, so the inputs' finiteness
  is never needed.

  The tiled program's result is read off its run boundary by boundary (Proof/KVal.lean), each tiled call's
  output array being one whole-array function of its operand arrays (Proof/Region0.lean … Region3.lean over
  Proof/Spec.lean); the reference's is its run's composed term.
-/
import proofs.«426023_j33397665693793_2_alg».proof.Defs
import proofs.«426023_j33397665693793_2_alg».proof.Proof.Gen.Kernel
import proofs.«426023_j33397665693793_2_alg».proof.Proof.Gen.Kernel.Skeleton
import proofs.«426023_j33397665693793_2_alg».proof.Proof.Gen.Kernel.Launch
import proofs.«426023_j33397665693793_2_alg».proof.Proof.Gen.Kernel.Points
import proofs.«426023_j33397665693793_2_alg».proof.Proof.Gen.Kernel.Frame
import proofs.«426023_j33397665693793_2_alg».proof.Proof.Gen.KernelIdeal
import proofs.«426023_j33397665693793_2_alg».proof.Proof.Gen.KernelIdeal.Skeleton
import proofs.«426023_j33397665693793_2_alg».proof.Proof.Gen.KernelIdeal.Launch
import proofs.«426023_j33397665693793_2_alg».proof.Proof.Gen.KernelIdeal.Points
import proofs.«426023_j33397665693793_2_alg».proof.Proof.Gen.KernelIdeal.Frame
import proofs.«426023_j33397665693793_2_alg».proof.Proof.Gen.ReferenceIdeal
import proofs.«426023_j33397665693793_2_alg».proof.Proof.Gen.ReferenceIdeal.Run
import proofs.«426023_j33397665693793_2_alg».proof.Proof.Gen.ReferenceIdeal.Read
import proofs.«426023_j33397665693793_2_alg».proof.Proof.Gen.Pre_finite_inputs
import proofs.«426023_j33397665693793_2_alg».proof.Proof.Run
import proofs.«426023_j33397665693793_2_alg».proof.Proof.KVal
import proofs.«426023_j33397665693793_2_alg».proof.Proof.Vocab
import proofs.«426023_j33397665693793_2_alg».proof.Proof.BridgeProj
import proofs.«426023_j33397665693793_2_alg».proof.Proof.BridgePool
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_p : Cert.frame_Kernel := fun m ρ _ => Cert.Kernel.Gen.frame m ρ

/-- So does the program read over the extended reals. -/
theorem frame_pi : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree the two programs end with equal results: the tiled program's is the pooling tail of
    its masked sums, the reference's the same tail of its scatter-added sums, and the two sums are one array —
    the first projection split at column 128, the second layer's product read row by row, the mask's column sums
    regrouped by graph. -/
theorem algebraic : Cert.algebraic_KernelIdeal_ReferenceIdeal := by
  intro m ρ m' ρ' _ hagree
  refine ⟨fun c => Cert.KernelIdeal.Gen.W12 m ρ c (Proc.devRef .tc Cert.KernelIdeal.main_v94), Cert.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v123 m' c = Cert.KernelIdeal.Gen.W12 m ρ c (Proc.devRef .tc Cert.KernelIdeal.main_v94)
  obtain ⟨e0, e1, e2, e3, e4, e5, e6, e7, e8, e9, e10, e11⟩ := hagree c
  rw [Cert.KernelVal.result m ρ c, Cert.ReferenceIdeal.Read.val_main_v123_eq, Cert.Vocab.ref_eq,
    e0, e1, e2, e3, e4, e5, e6, e7, e8, e9, e10, e11]
  unfold Cert.KernelVal.sums Cert.KernelVal.c2 Cert.KernelVal.h1 Cert.KernelVal.c1 Cert.KernelVal.h0 Cert.KernelVal.table
  rw [Cert.BridgeProj.proj_eq, Cert.BridgePool.layer2_eq, Cert.BridgePool.pool_eq]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
